-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S2x196608 : Shape := ⟨2, ![2, 196608]⟩
abbrev S12288x12288 : Shape := ⟨2, ![12288, 12288]⟩
abbrev S64x64 : Shape := ⟨2, ![64, 64]⟩
abbrev S64 : Shape := ⟨1, ![64]⟩
abbrev S_ : Shape := ⟨0, ![]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part1 {F : FTy → Type} [FloatOps F] (main_arg5 : FVec F S64 .f32) (main_arg6 : FVec F S_ .f32) (main_arg7 : FVec F S_ .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S_ .f32 := Host.absf main_arg7
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  main_v31

def fn {F : FTy → Type} [FloatOps F] (main_arg0 : FVec F S12288x64 .f32) (main_arg1 : IVec S2x196608 32) (main_arg2 : FVec F S12288x12288 .f32) (main_arg3 : FVec F S64x64 .f32) (main_arg4 : FVec F S64x64 .f32) (main_arg5 : FVec F S64 .f32) (main_arg6 : FVec F S_ .f32) (main_arg7 : FVec F S_ .f32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  let main_v4 : FVec F S12288x12288 .f32 := Host.absf main_arg2
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S12288x64 : Shape := ⟨2, ![12288, 64]⟩
abbrev S2x196608 : Shape := ⟨2, ![2, 196608]⟩
abbrev S12288x12288 : Shape := ⟨2, ![12288, 12288]⟩
abbrev S64x64 : Shape := ⟨2, ![64, 64]⟩
abbrev S64 : Shape := ⟨1, ![64]⟩
abbrev S_ : Shape := ⟨0, ![]⟩
abbrev S1536x1536 : Shape := ⟨2, ![1536, 1536]⟩
abbrev S1536x64 : Shape := ⟨2, ![1536, 64]⟩
abbrev S12288 : Shape := ⟨1, ![12288]⟩
abbrev S1x196608 : Shape := ⟨2, ![1, 196608]⟩
abbrev S196608 : Shape := ⟨1, ![196608]⟩
abbrev S208896 : Shape := ⟨1, ![208896]⟩
abbrev S208896x1 : Shape := ⟨2, ![208896, 1]⟩
abbrev S208896x64 : Shape := ⟨2, ![208896, 64]⟩
abbrev S1x64 : Shape := ⟨2, ![1, 64]⟩

abbrev nBuf : Space → Nat
  | .hbm => 80
  | .vmem => 7
  | .smem => 0
  | _ => 0

abbrev bufTy : (tb : Table) → Fin (tcTables nBuf tb) → BufTy
  | .hbm, ⟨0, _⟩ => ⟨S12288x64, .f32⟩
  | .hbm, ⟨1, _⟩ => ⟨S2x196608, .i32⟩
  | .hbm, ⟨2, _⟩ => ⟨S12288x12288, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S64x64, .f32⟩
  | .hbm, ⟨9, _⟩ => ⟨S12288x64, .f32⟩
  | .hbm, ⟨10, _⟩ => ⟨S_, .f32⟩
  | .hbm, ⟨11, _⟩ => ⟨S12288x64, .f32⟩
  | .hbm, ⟨12, _⟩ => ⟨S12288x64, .f32⟩
  | .hbm, ⟨13, _⟩ => ⟨S12288x64, .f32⟩
  | .hbm, ⟨14, _⟩ => ⟨S12288, .i32⟩
  | .hbm, ⟨15, _⟩ => ⟨S1x196608, .i32⟩
  | .hbm, ⟨16, _⟩ => ⟨S196608, .i32⟩
  | .hbm, ⟨17, _⟩ => ⟨S208896, .i32⟩
  | .hbm, ⟨18, _⟩ => ⟨S1x196608, .i32⟩
  | .hbm, ⟨19, _⟩ => ⟨S196608, .i32⟩
  | .hbm, ⟨20, _⟩ => ⟨S208896, .i32⟩
  | .hbm, ⟨21, _⟩ => ⟨S_, .f32⟩
  | .hbm, ⟨22, _⟩ => ⟨S208896, .f32⟩
  | .hbm, ⟨23, _⟩ => ⟨S_, .f32⟩
  | .hbm, ⟨24, _⟩ => ⟨S12288, .f32⟩
  | .hbm, ⟨25, _⟩ => ⟨S208896x1, .i32⟩
  | .hbm, ⟨26, _⟩ => ⟨S12288, .f32⟩
  | .hbm, ⟨27, _⟩ => ⟨S_, .f32⟩
  | .hbm, ⟨28, _⟩ => ⟨S12288, .f32⟩
  | .hbm, ⟨29, _⟩ => ⟨S12288, .i1⟩
  | .hbm, ⟨30, _⟩ => ⟨S12288, .f32⟩
  | .hbm, ⟨31, _⟩ => ⟨S_, .f32⟩
  | .hbm, ⟨32, _⟩ => ⟨S_, .f32⟩
  | .hbm, ⟨33, _⟩ => ⟨S12288, .f32⟩
  | .hbm, ⟨34, _⟩ => ⟨S12288, .f32⟩
  | .hbm, ⟨35, _⟩ => ⟨S_, .i32⟩
  | .hbm, ⟨36, _⟩ => ⟨S208896, .i32⟩
  | .hbm, ⟨37, _⟩ => ⟨S208896, .i1⟩
  | .hbm, ⟨38, _⟩ => ⟨S_, .i32⟩
  | .hbm, ⟨39, _⟩ => ⟨S208896, .i32⟩
  | .hbm, ⟨40, _⟩ => ⟨S208896, .i32⟩
  | .hbm, ⟨41, _⟩ => ⟨S208896, .i32⟩
  | .hbm, ⟨42, _⟩ => ⟨S208896x1, .i32⟩
  | .hbm, ⟨43, _⟩ => ⟨S208896, .f32⟩
  | .hbm, ⟨44, _⟩ => ⟨S_, .i32⟩
  | .hbm, ⟨45, _⟩ => ⟨S208896, .i32⟩
  | .hbm, ⟨46, _⟩ => ⟨S208896, .i1⟩
  | .hbm, ⟨47, _⟩ => ⟨S_, .i32⟩
  | .hbm, ⟨48, _⟩ => ⟨S208896, .i32⟩
  | .hbm, ⟨49, _⟩ => ⟨S208896, .i32⟩
  | .hbm, ⟨50, _⟩ => ⟨S208896, .i32⟩
  | .hbm, ⟨51, _⟩ => ⟨S208896x1, .i32⟩
  | .hbm, ⟨52, _⟩ => ⟨S208896, .f32⟩
  | .hbm, ⟨53, _⟩ => ⟨S208896, .f32⟩
  | .hbm, ⟨54, _⟩ => ⟨S64x64, .f32⟩
  | .hbm, ⟨55, _⟩ => ⟨S12288x64, .f32⟩
  | .hbm, ⟨56, _⟩ => ⟨S_, .i32⟩
  | .hbm, ⟨57, _⟩ => ⟨S208896, .i32⟩
  | .hbm, ⟨58, _⟩ => ⟨S208896, .i1⟩
  | .hbm, ⟨59, _⟩ => ⟨S_, .i32⟩
  | .hbm, ⟨60, _⟩ => ⟨S208896, .i32⟩
  | .hbm, ⟨61, _⟩ => ⟨S208896, .i32⟩
  | .hbm, ⟨62, _⟩ => ⟨S208896, .i32⟩
  | .hbm, ⟨63, _⟩ => ⟨S208896x1, .i32⟩
  | .hbm, ⟨64, _⟩ => ⟨S208896x64, .f32⟩
  | .hbm, ⟨65, _⟩ => ⟨S208896x1, .f32⟩
  | .hbm, ⟨66, _⟩ => ⟨S208896x64, .f32⟩
  | .hbm, ⟨67, _⟩ => ⟨S208896x64, .f32⟩
  | .hbm, ⟨68, _⟩ => ⟨S_, .f32⟩
  | .hbm, ⟨69, _⟩ => ⟨S12288x64, .f32⟩
  | .hbm, ⟨70, _⟩ => ⟨S208896x1, .i32⟩
  | .hbm, ⟨71, _⟩ => ⟨S12288x64, .f32⟩
  | .hbm, ⟨72, _⟩ => ⟨S1x64, .f32⟩
  | .hbm, ⟨73, _⟩ => ⟨S12288x64, .f32⟩
  | .hbm, ⟨74, _⟩ => ⟨S12288x64, .f32⟩
  | .hbm, ⟨75, _⟩ => ⟨S12288x64, .f32⟩
  | .hbm, ⟨76, _⟩ => ⟨S12288x64, .f32⟩
  | .hbm, ⟨77, _⟩ => ⟨S12288x64, .f32⟩
  | .hbm, ⟨78, _⟩ => ⟨S12288x64, .f32⟩
  | .hbm, ⟨79, _⟩ => ⟨S12288x64, .f32⟩
  | .local _ .vmem, ⟨0, _⟩ => ⟨S1536x1536, .f32⟩
  | .local _ .vmem, ⟨1, _⟩ => ⟨S1536x1536, .f32⟩
  | .local _ .vmem, ⟨2, _⟩ => ⟨S1536x64, .f32⟩
  | .local _ .vmem, ⟨3, _⟩ => ⟨S1536x64, .f32⟩
  | .local _ .vmem, ⟨4, _⟩ => ⟨S1536x64, .f32⟩
  | .local _ .vmem, ⟨5, _⟩ => ⟨S1536x64, .f32⟩
  | .local _ .vmem, ⟨6, _⟩ => ⟨S1536x64, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S64x64_S64x64_1_0 : S64x64.Transposes [1, 0] S64x64
  bcast_S_S12288x64 : S_.BroadcastsInDim S12288x64 (![] : Fin 0 → Fin S12288x64.rank)
  inb_S1536x64_S1536x64_0_0 : ∀ a, (![0, 0] : Fin 2 → Nat) a + S1536x64.size a ≤ S1536x64.size a
  h_S1536x64 : 0 < S1536x64.numel
  shapeCasts_S1536x64_S1536x64 : S1536x64.ShapeCasts S1536x64
  inb_S1536x1536_S1536x1536_0_0 : ∀ a, (![0, 0] : Fin 2 → Nat) a + S1536x1536.size a ≤ S1536x1536.size a
  h_S1536x1536 : 0 < S1536x1536.numel
  bitsLt_bf16_f32 : FTy.bits .bf16 < FTy.bits .f32
  slices_S2x196608_S1x196608_0_0 : S2x196608.Slices ![0, 0] S1x196608
  shapeCasts_S1x196608_S196608 : S1x196608.ShapeCasts S196608
  concatenates_S196608_S12288_S208896_d0 : Shape.Concatenates [S196608, S12288] S208896 0
  slices_S2x196608_S1x196608_1_0 : S2x196608.Slices ![1, 0] S1x196608
  bcast_S_S208896 : S_.BroadcastsInDim S208896 (![] : Fin 0 → Fin S208896.rank)
  bcast_S_S12288 : S_.BroadcastsInDim S12288 (![] : Fin 0 → Fin S12288.rank)
  bcast_S208896_S208896x1_0 : S208896.BroadcastsInDim S208896x1 (![0] : Fin 1 → Fin S208896x1.rank)
  bcast_S208896x1_S208896x64_0_1 : S208896x1.BroadcastsInDim S208896x64 (![0, 1] : Fin 2 → Fin S208896x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  dot_S12288x64_S64x64_S12288x64_1_0_0_1_n_n_wf : DotDims.WF S12288x64 S64x64 S12288x64 [1] [0] [0] [1] [] []
  dot_S1536x1536_S1536x64_S1536x64_1_0_0_1_n_n_wf : DotDims.WF S1536x1536 S1536x64 S1536x64 [1] [0] [0] [1] [] []
  scatter_S12288_S208896x1_S208896_n_0_0_1_wf : ScatterDims.WF S12288 S208896x1 S208896 [] [0] [0] 1
  gather_S12288_S208896x1_S208896_n_0_n_n_0_1_1_wf : GatherDims.WF S12288 S208896x1 S208896 [] [0] [] [0] [] 1 ![1]
  gather_S12288x64_S208896x1_S208896x64_1_0_n_n_0_1_164_wf : GatherDims.WF S12288x64 S208896x1 S208896x64 [1] [0] [] [0] [] 1 ![1, 64]
  scatter_S12288x64_S208896x1_S208896x64_1_0_0_1_wf : ScatterDims.WF S12288x64 S208896x1 S208896x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x1536.size a ≤ S12288x12288.size a
  hwx0_0 : ∀ i : grid0.Coords, EltTy.bits .f32 = 32 ∨ (Rect.block (s := S12288x12288) S1536x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x64.size a ≤ S12288x64.size a
  hwx0_1 : ∀ i : grid0.Coords, EltTy.bits .f32 = 32 ∨ (Rect.block (s := S12288x64) S1536x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x64.size a ≤ S12288x64.size a
  hwx0_2 : ∀ i : grid0.Coords, EltTy.bits .f32 = 32 ∨ (Rect.block (s := S12288x64) S1536x64.size (cc0_transform_2 i) (hinb0_2 i)).WholeWords (EltTy.packing .f32)

variable [Facts₀]

def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S1536x1536_S1536x64_S1536x64_1_0_0_1_n_n : DotDims S1536x1536 S1536x64 S1536x64 where
  lhsContracting := [1]
  rhsContracting := [0]
  lhsNonContracting := [0]
  rhsNonContracting := [1]
  lhsBatch := []
  rhsBatch := []
  wf := dot_S1536x1536_S1536x64_S1536x64_1_0_0_1_n_n_wf
def scatter_S12288_S208896x1_S208896_n_0_0_1 : ScatterDims S12288 S208896x1 S208896 where
  updateWindowDims := []
  insertedWindowDims := [0]
  scatterDimsToOperandDims := [0]
  indexVectorDim := 1
  wf := scatter_S12288_S208896x1_S208896_n_0_0_1_wf
def gather_S12288_S208896x1_S208896_n_0_n_n_0_1_1 : GatherDims S12288 S208896x1 S208896 where
  offsetDims := []
  collapsedSliceDims := [0]
  operandBatchingDims := []
  startIndicesBatchingDims := []
  startIndexMap := [0]
  indexVectorDim := 1
  sliceSizes := ![1]
  wf := gather_S12288_S208896x1_S208896_n_0_n_n_0_1_1_wf
def gather_S12288x64_S208896x1_S208896x64_1_0_n_n_0_1_164 : GatherDims S12288x64 S208896x1 S208896x64 where
  offsetDims := [1]
  collapsedSliceDims := [0]
  operandBatchingDims := []
  startIndicesBatchingDims := []
  startIndexMap := [0]
  indexVectorDim := 1
  sliceSizes := ![1, 64]
  wf := gather_S12288x64_S208896x1_S208896x64_1_0_n_n_0_1_164_wf
def scatter_S12288x64_S208896x1_S208896x64_1_0_0_1 : ScatterDims S12288x64 S208896x1 S208896x64 where
  updateWindowDims := [1]
  insertedWindowDims := [0]
  scatterDimsToOperandDims := [0]
  indexVectorDim := 1
  wf := scatter_S12288x64_S208896x1_S208896x64_1_0_0_1_wf

abbrev win0_0 : Pipeline.Window sig grid0 :=
  Pipeline.Window.ofSpec (Memref.whole main_arg2) S1536x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1536x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1536x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S12288x64 : Shape := ⟨2, ![12288, 64]⟩
abbrev S2x196608 : Shape := ⟨2, ![2, 196608]⟩
abbrev S12288x12288 : Shape := ⟨2, ![12288, 12288]⟩
abbrev S64x64 : Shape := ⟨2, ![64, 64]⟩
abbrev S64 : Shape := ⟨1, ![64]⟩
abbrev S_ : Shape := ⟨0, ![]⟩
abbrev S12288 : Shape := ⟨1, ![12288]⟩
abbrev S1x196608 : Shape := ⟨2, ![1, 196608]⟩
abbrev S196608 : Shape := ⟨1, ![196608]⟩
abbrev S208896 : Shape := ⟨1, ![208896]⟩
abbrev S208896x1 : Shape := ⟨2, ![208896, 1]⟩
abbrev S208896x64 : Shape := ⟨2, ![208896, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S2x196608, .i32⟩
  | .hbm, ⟨2, _⟩ => ⟨S12288x12288, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S64x64, .f32⟩
  | .hbm, ⟨9, _⟩ => ⟨S12288x64, .f32⟩
  | .hbm, ⟨10, _⟩ => ⟨S_, .f32⟩
  | .hbm, ⟨11, _⟩ => ⟨S12288x64, .f32⟩
  | .hbm, ⟨12, _⟩ => ⟨S12288x64, .f32⟩
  | .hbm, ⟨13, _⟩ => ⟨S12288x64, .f32⟩
  | .hbm, ⟨14, _⟩ => ⟨S12288, .i32⟩
  | .hbm, ⟨15, _⟩ => ⟨S1x196608, .i32⟩
  | .hbm, ⟨16, _⟩ => ⟨S196608, .i32⟩
  | .hbm, ⟨17, _⟩ => ⟨S208896, .i32⟩
  | .hbm, ⟨18, _⟩ => ⟨S1x196608, .i32⟩
  | .hbm, ⟨19, _⟩ => ⟨S196608, .i32⟩
  | .hbm, ⟨20, _⟩ => ⟨S208896, .i32⟩
  | .hbm, ⟨21, _⟩ => ⟨S_, .f32⟩
  | .hbm, ⟨22, _⟩ => ⟨S208896, .f32⟩
  | .hbm, ⟨23, _⟩ => ⟨S_, .f32⟩
  | .hbm, ⟨24, _⟩ => ⟨S12288, .f32⟩
  | .hbm, ⟨25, _⟩ => ⟨S208896x1, .i32⟩
  | .hbm, ⟨26, _⟩ => ⟨S12288, .f32⟩
  | .hbm, ⟨27, _⟩ => ⟨S_, .f32⟩
  | .hbm, ⟨28, _⟩ => ⟨S12288, .f32⟩
  | .hbm, ⟨29, _⟩ => ⟨S12288, .i1⟩
  | .hbm, ⟨30, _⟩ => ⟨S12288, .f32⟩
  | .hbm, ⟨31, _⟩ => ⟨S_, .f32⟩
  | .hbm, ⟨32, _⟩ => ⟨S_, .f32⟩
  | .hbm, ⟨33, _⟩ => ⟨S12288, .f32⟩
  | .hbm, ⟨34, _⟩ => ⟨S12288, .f32⟩
  | .hbm, ⟨35, _⟩ => ⟨S_, .i32⟩
  | .hbm, ⟨36, _⟩ => ⟨S208896, .i32⟩
  | .hbm, ⟨37, _⟩ => ⟨S208896, .i1⟩
  | .hbm, ⟨38, _⟩ => ⟨S_, .i32⟩
  | .hbm, ⟨39, _⟩ => ⟨S208896, .i32⟩
  | .hbm, ⟨40, _⟩ => ⟨S208896, .i32⟩
  | .hbm, ⟨41, _⟩ => ⟨S208896, .i32⟩
  | .hbm, ⟨42, _⟩ => ⟨S208896x1, .i32⟩
  | .hbm, ⟨43, _⟩ => ⟨S208896, .f32⟩
  | .hbm, ⟨44, _⟩ => ⟨S_, .i32⟩
  | .hbm, ⟨45, _⟩ => ⟨S208896, .i32⟩
  | .hbm, ⟨46, _⟩ => ⟨S208896, .i1⟩
  | .hbm, ⟨47, _⟩ => ⟨S_, .i32⟩
  | .hbm, ⟨48, _⟩ => ⟨S208896, .i32⟩
  | .hbm, ⟨49, _⟩ => ⟨S208896, .i32⟩
  | .hbm, ⟨50, _⟩ => ⟨S208896, .i32⟩
  | .hbm, ⟨51, _⟩ => ⟨S208896x1, .i32⟩
  | .hbm, ⟨52, _⟩ => ⟨S208896, .f32⟩
  | .hbm, ⟨53, _⟩ => ⟨S208896, .f32⟩
  | .hbm, ⟨54, _⟩ => ⟨S64x64, .f32⟩
  | .hbm, ⟨55, _⟩ => ⟨S12288x64, .f32⟩
  | .hbm, ⟨56, _⟩ => ⟨S_, .i32⟩
  | .hbm, ⟨57, _⟩ => ⟨S208896, .i32⟩
  | .hbm, ⟨58, _⟩ => ⟨S208896, .i1⟩
  | .hbm, ⟨59, _⟩ => ⟨S_, .i32⟩
  | .hbm, ⟨60, _⟩ => ⟨S208896, .i32⟩
  | .hbm, ⟨61, _⟩ => ⟨S208896, .i32⟩
  | .hbm, ⟨62, _⟩ => ⟨S208896, .i32⟩
  | .hbm, ⟨63, _⟩ => ⟨S208896x1, .i32⟩
  | .hbm, ⟨64, _⟩ => ⟨S208896x64, .f32⟩
  | .hbm, ⟨65, _⟩ => ⟨S208896x1, .f32⟩
  | .hbm, ⟨66, _⟩ => ⟨S208896x64, .f32⟩
  | .hbm, ⟨67, _⟩ => ⟨S208896x64, .f32⟩
  | .hbm, ⟨68, _⟩ => ⟨S_, .f32⟩
  | .hbm, ⟨69, _⟩ => ⟨S12288x64, .f32⟩
  | .hbm, ⟨70, _⟩ => ⟨S208896x1, .i32⟩
  | .hbm, ⟨71, _⟩ => ⟨S12288x64, .f32⟩
  | .hbm, ⟨72, _⟩ => ⟨S1x64, .f32⟩
  | .hbm, ⟨73, _⟩ => ⟨S12288x64, .f32⟩
  | .hbm, ⟨74, _⟩ => ⟨S12288x64, .f32⟩
  | .hbm, ⟨75, _⟩ => ⟨S12288x64, .f32⟩
  | .hbm, ⟨76, _⟩ => ⟨S12288x64, .f32⟩
  | .hbm, ⟨77, _⟩ => ⟨S12288x64, .f32⟩
  | .hbm, ⟨78, _⟩ => ⟨S12288x64, .f32⟩
  | .hbm, ⟨79, _⟩ => ⟨S12288x64, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  transposes_S64x64_S64x64_1_0 : S64x64.Transposes [1, 0] S64x64
  bcast_S_S12288x64 : S_.BroadcastsInDim S12288x64 (![] : Fin 0 → Fin S12288x64.rank)
  slices_S2x196608_S1x196608_0_0 : S2x196608.Slices ![0, 0] S1x196608
  shapeCasts_S1x196608_S196608 : S1x196608.ShapeCasts S196608
  concatenates_S196608_S12288_S208896_d0 : Shape.Concatenates [S196608, S12288] S208896 0
  slices_S2x196608_S1x196608_1_0 : S2x196608.Slices ![1, 0] S1x196608
  bcast_S_S208896 : S_.BroadcastsInDim S208896 (![] : Fin 0 → Fin S208896.rank)
  bcast_S_S12288 : S_.BroadcastsInDim S12288 (![] : Fin 0 → Fin S12288.rank)
  bcast_S208896_S208896x1_0 : S208896.BroadcastsInDim S208896x1 (![0] : Fin 1 → Fin S208896x1.rank)
  bcast_S208896x1_S208896x64_0_1 : S208896x1.BroadcastsInDim S208896x64 (![0, 1] : Fin 2 → Fin S208896x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  dot_S12288x64_S64x64_S12288x64_1_0_0_1_n_n_wf : DotDims.WF S12288x64 S64x64 S12288x64 [1] [0] [0] [1] [] []
  dot_S12288x12288_S12288x64_S12288x64_1_0_0_1_n_n_wf : DotDims.WF S12288x12288 S12288x64 S12288x64 [1] [0] [0] [1] [] []
  scatter_S12288_S208896x1_S208896_n_0_0_1_wf : ScatterDims.WF S12288 S208896x1 S208896 [] [0] [0] 1
  gather_S12288_S208896x1_S208896_n_0_n_n_0_1_1_wf : GatherDims.WF S12288 S208896x1 S208896 [] [0] [] [0] [] 1 ![1]
  gather_S12288x64_S208896x1_S208896x64_1_0_n_n_0_1_164_wf : GatherDims.WF S12288x64 S208896x1 S208896x64 [1] [0] [] [0] [] 1 ![1, 64]
  scatter_S12288x64_S208896x1_S208896x64_1_0_0_1_wf : ScatterDims.WF S12288x64 S208896x1 S208896x64 [1] [0] [0] 1

variable [Facts₀]

def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf
def scatter_S12288_S208896x1_S208896_n_0_0_1 : ScatterDims S12288 S208896x1 S208896 where
  updateWindowDims := []
  insertedWindowDims := [0]
  scatterDimsToOperandDims := [0]
  indexVectorDim := 1
  wf := scatter_S12288_S208896x1_S208896_n_0_0_1_wf
def gather_S12288_S208896x1_S208896_n_0_n_n_0_1_1 : GatherDims S12288 S208896x1 S208896 where
  offsetDims := []
  collapsedSliceDims := [0]
  operandBatchingDims := []
  startIndicesBatchingDims := []
  startIndexMap := [0]
  indexVectorDim := 1
  sliceSizes := ![1]
  wf := gather_S12288_S208896x1_S208896_n_0_n_n_0_1_1_wf
def gather_S12288x64_S208896x1_S208896x64_1_0_n_n_0_1_164 : GatherDims S12288x64 S208896x1 S208896x64 where
  offsetDims := [1]
  collapsedSliceDims := [0]
  operandBatchingDims := []
  startIndicesBatchingDims := []
  startIndexMap := [0]
  indexVectorDim := 1
  sliceSizes := ![1, 64]
  wf := gather_S12288x64_S208896x1_S208896x64_1_0_n_n_0_1_164_wf
def scatter_S12288x64_S208896x1_S208896x64_1_0_0_1 : ScatterDims S12288x64 S208896x1 S208896x64 where
  updateWindowDims := [1]
  insertedWindowDims := [0]
  scatterDimsToOperandDims := [0]
  indexVectorDim := 1
  wf := scatter_S12288x64_S208896x1_S208896x64_1_0_0_1_wf

class Facts : Prop extends Facts₀ where

variable [Facts]
-- ==== Proof.K.Runs.lean ====
import proofs.«147044_j22316650070954_1_alg».proof.Proof.Gen.Kernel.Launch
import proofs.«147044_j22316650070954_1_alg».proof.Proof.Gen.Kernel.Skeleton
import proofs.«147044_j22316650070954_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the one region

`forward` is: two host stretches computing `Z = relu (x · W_highᵀ)`, the region computing `Lsym · Z` block by
block, three host stretches computing the graph convolution and the final combination `aL • Hl + aH • Hh`. -/

/-- What core `c`'s buffers hold when the region is entered: the launch contents after the two host stretches
    that compute `Z`. -/
abbrev V0 (c : Dev nD) : Valuation τ sig (Elt F) := StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

/-- The three host stretches after the region (18, 3 and 45 operations). -/
abbrev sfxOps : List (List (HloOp τ sig (Elt F))) := [hostOps1, hostOps1_1, hostOps1_2]

/-! ### No host operation allocates -/

theorem hostOps0_fresh : (hostOps0 : List (HloOp τ sig (Elt F))).Forall fun op => op.fresh = ∅ := ⟨rfl, rfl⟩
theorem hostOps0_1_fresh : (hostOps0_1 : List (HloOp τ sig (Elt F))).Forall fun op => op.fresh = ∅ := ⟨rfl, rfl, rfl⟩
theorem hostOps1_fresh : (hostOps1 : List (HloOp τ sig (Elt F))).Forall fun op => op.fresh = ∅ := ⟨rfl, rfl, rfl, rfl, rfl, rfl, rfl, rfl, rfl, rfl, rfl, rfl, rfl, rfl, rfl, rfl, rfl, rfl⟩
theorem hostOps1_1_fresh : (hostOps1_1 : List (HloOp τ sig (Elt F))).Forall fun op => op.fresh = ∅ := ⟨rfl, rfl, rfl⟩
theorem hostOps1_2_fresh : (hostOps1_2 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### What the host operations write

Every host operation writes exactly its result buffer. The results of the stretches before the region are listed in
`preW`, those of the stretches after it in `sfxW`; no argument array is in either list, and neither `Lsym`'s array,
`Z`'s, nor the region's result is in `sfxW`. All the membership questions below are then decided on these two lists. -/

/-- The buffers written before the region: `W_highᵀ`, `x · W_highᵀ`, the constant `0`, its broadcast, `Z`. -/
abbrev preW : List (Ref sig .tc) := [main_v0, main_v1, main_call0_cst, main_call0_v0, main_v2]
/-- The 66 buffers written after the region. -/
abbrev sfxW : List (Ref sig .tc) := [main_v4, main_v5, main_v6, main_v7, main_v8, main_v9, main_v10, main_cst, main_v11, main_cst_0, main_v12, main_v13, main_v14, main_cst_1, main_v15, main_v16, main_v17, main_cst_2, main_call1_v0, main_call1_v1, main_v18, main_c, main_v19, main_v20, main_c_3, main_v21, main_v22, main_v23, main_v24, main_v25, main_c_4, main_v26, main_v27, main_c_5, main_v28, main_v29, main_v30, main_v31, main_v32, main_v33, main_v34, main_v35, main_c_6, main_v36, main_v37, main_c_7, main_v38, main_v39, main_v40, main_v41, main_v42, main_v43, main_v44, main_v45, main_cst_8, main_v46, main_v47, main_v48, main_v49, main_v50, main_v51, main_v52, main_v53, main_v54, main_v55, main_v56]

/-- A singleton `{y}` of device buffers lies in the image of a list holding `y`. -/
theorem wsub (y : Ref sig .tc) (W : List (Ref sig .tc)) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem hostOps0_writes : (hostOps0 : List (HloOp τ sig (Elt F))).Forall fun op => op.writes ⊆ (preW.map (Proc.devRef (τ := τ) .tc)).toFinset := ⟨wsub _ _ (by decide), wsub _ _ (by decide)⟩
theorem hostOps0_1_writes : (hostOps0_1 : List (HloOp τ sig (Elt F))).Forall fun op => op.writes ⊆ (preW.map (Proc.devRef (τ := τ) .tc)).toFinset := ⟨wsub _ _ (by decide), wsub _ _ (by decide), wsub _ _ (by decide)⟩
theorem hostOps1_writes : (hostOps1 : List (HloOp τ sig (Elt F))).Forall fun op => op.writes ⊆ (sfxW.map (Proc.devRef (τ := τ) .tc)).toFinset := ⟨wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide)⟩
theorem hostOps1_1_writes : (hostOps1_1 : List (HloOp τ sig (Elt F))).Forall fun op => op.writes ⊆ (sfxW.map (Proc.devRef (τ := τ) .tc)).toFinset := ⟨wsub _ _ (by decide), wsub _ _ (by decide), wsub _ _ (by decide)⟩
theorem hostOps1_2_writes : (hostOps1_2 : List (HloOp τ sig (Elt F))).Forall fun op => op.writes ⊆ (sfxW.map (Proc.devRef (τ := τ) .tc)).toFinset := ⟨wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide)⟩

/-- Every operation before the region writes inside `preW`. -/
theorem pre_writes : (List.flatten [hostOps0, hostOps0_1] : List (HloOp τ sig (Elt F))).Forall fun op => op.writes ⊆ (preW.map (Proc.devRef (τ := τ) .tc)).toFinset :=
  List.forall_iff_forall_mem.mpr fun op hop => by
    obtain ⟨ops, hops, h⟩ := List.mem_flatten.mp hop
    simp only [List.mem_cons, List.mem_nil_iff, or_false] at hops
    rcases hops with rfl | rfl
    · exact (List.forall_iff_forall_mem.mp hostOps0_writes) op h
    · exact (List.forall_iff_forall_mem.mp hostOps0_1_writes) op h

/-- Every operation after the region writes inside `sfxW`. -/
theorem sfx_writes : ∀ ops ∈ (sfxOps : List (List (HloOp τ sig (Elt F)))), ∀ op ∈ ops, op.writes ⊆ (sfxW.map (Proc.devRef (τ := τ) .tc)).toFinset := by
  intro ops hops op hop
  simp only [List.mem_cons, List.mem_nil_iff, or_false] at hops
  rcases hops with rfl | rfl | rfl
  · exact (List.forall_iff_forall_mem.mp hostOps1_writes) op hop
  · exact (List.forall_iff_forall_mem.mp hostOps1_1_writes) op hop
  · exact (List.forall_iff_forall_mem.mp hostOps1_2_writes) op hop

theorem sfx_flat_writes : ((sfxOps : List (List (HloOp τ sig (Elt F)))).flatten).Forall fun op => op.writes ⊆ (sfxW.map (Proc.devRef (τ := τ) .tc)).toFinset :=
  List.forall_iff_forall_mem.mpr fun op hop => by
    obtain ⟨ops, hops, h⟩ := List.mem_flatten.mp hop
    exact sfx_writes ops hops op h

/-! ### @main around the region -/

/-- @main is: the host stretches before the region, the region, the host stretches after it; so running it reduces to
    running the region continued by the later stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (sfxOps.map StableHlo.seq)) :=
  Pipeline.hmain_around cfgs 0 defs₀ 𝒱₀ m main [hostOps0, hostOps0_1] [hostOps1, hostOps1_1, hostOps1_2]
    (by simp only [List.Forall]; exact ⟨hostOps0_sub, hostOps0_1_sub⟩)
    (by simp only [List.Forall]; exact ⟨hostOps0_fresh, hostOps0_1_fresh⟩) main_chain

/-- The later stretches touch only the region's three arrays and the buffers that bypass the region. -/
theorem sfx_sub : ∀ ops ∈ (sfxOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (sfxOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And they write none of `Lsym`'s array, `Z`'s array, the region's result: none of the three is in `sfxW`. -/
theorem sfx_keeps : ∀ ops ∈ (sfxOps : List (List (HloOp τ sig (Elt F)))), ∀ op ∈ ops,
    ∀ w, Proc.devRef .tc (Pipeline.arrRef spec0 w) ∉ op.writes := by
  intro ops hops op hop w hw
  obtain ⟨y, hy, he⟩ := List.mem_map.mp (List.mem_toFinset.mp (sfx_writes ops hops op hop hw))
  have hyw : y = Pipeline.arrRef spec0 w := Proc.devRef_injective _ he
  exact (by decide : ∀ w, Pipeline.arrRef spec0 w ∉ sfxW) w (hyw ▸ hy)

/-! ### The argument arrays at the region's entry and after the later stretches -/

/-- No stretch before the region writes argument 0: the region finds it as launched. -/
theorem V_main_arg0 (c : Dev nD) : V m c main_arg0 = m ((c : Thread nD τ).loc main_arg0) :=
  StableHlo.after_of_writes_sub (W := preW) _ _ pre_writes (by decide)
/-- No stretch before the region writes argument 1: the region finds it as launched. -/
theorem V_main_arg1 (c : Dev nD) : V m c main_arg1 = m ((c : Thread nD τ).loc main_arg1) :=
  StableHlo.after_of_writes_sub (W := preW) _ _ pre_writes (by decide)
/-- No stretch before the region writes argument 2: the region finds it as launched. -/
theorem V_main_arg2 (c : Dev nD) : V m c main_arg2 = m ((c : Thread nD τ).loc main_arg2) :=
  StableHlo.after_of_writes_sub (W := preW) _ _ pre_writes (by decide)
/-- No stretch before the region writes argument 3: the region finds it as launched. -/
theorem V_main_arg3 (c : Dev nD) : V m c main_arg3 = m ((c : Thread nD τ).loc main_arg3) :=
  StableHlo.after_of_writes_sub (W := preW) _ _ pre_writes (by decide)
/-- No stretch before the region writes argument 4: the region finds it as launched. -/
theorem V_main_arg4 (c : Dev nD) : V m c main_arg4 = m ((c : Thread nD τ).loc main_arg4) :=
  StableHlo.after_of_writes_sub (W := preW) _ _ pre_writes (by decide)
/-- No stretch before the region writes argument 5: the region finds it as launched. -/
theorem V_main_arg5 (c : Dev nD) : V m c main_arg5 = m ((c : Thread nD τ).loc main_arg5) :=
  StableHlo.after_of_writes_sub (W := preW) _ _ pre_writes (by decide)
/-- No stretch before the region writes argument 6: the region finds it as launched. -/
theorem V_main_arg6 (c : Dev nD) : V m c main_arg6 = m ((c : Thread nD τ).loc main_arg6) :=
  StableHlo.after_of_writes_sub (W := preW) _ _ pre_writes (by decide)
/-- No stretch before the region writes argument 7: the region finds it as launched. -/
theorem V_main_arg7 (c : Dev nD) : V m c main_arg7 = m ((c : Thread nD τ).loc main_arg7) :=
  StableHlo.after_of_writes_sub (W := preW) _ _ pre_writes (by decide)

/-- No stretch after the region writes argument 0, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) sfxOps c main_arg0 = m ((c : Thread nD τ).loc main_arg0) := by
  unfold Pipeline.afterTail₀
  rw [StableHlo.after_of_writes_sub (W := sfxW) _ _ sfx_flat_writes (by decide),
    Pipeline.withArrays_of_ne _ c (V0 m c) _ main_arg0 (by exact (by decide : ∀ w, Pipeline.arrRef spec0 w ≠ main_arg0))]
  exact V_main_arg0 m c
/-- No stretch after the region writes argument 1, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) sfxOps c main_arg1 = m ((c : Thread nD τ).loc main_arg1) := by
  unfold Pipeline.afterTail₀
  rw [StableHlo.after_of_writes_sub (W := sfxW) _ _ sfx_flat_writes (by decide),
    Pipeline.withArrays_of_ne _ c (V0 m c) _ main_arg1 (by exact (by decide : ∀ w, Pipeline.arrRef spec0 w ≠ main_arg1))]
  exact V_main_arg1 m c
/-- No stretch after the region writes argument 3, and it is none of the region's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) sfxOps c main_arg3 = m ((c : Thread nD τ).loc main_arg3) := by
  unfold Pipeline.afterTail₀
  rw [StableHlo.after_of_writes_sub (W := sfxW) _ _ sfx_flat_writes (by decide),
    Pipeline.withArrays_of_ne _ c (V0 m c) _ main_arg3 (by exact (by decide : ∀ w, Pipeline.arrRef spec0 w ≠ main_arg3))]
  exact V_main_arg3 m c
/-- No stretch after the region writes argument 4, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) sfxOps c main_arg4 = m ((c : Thread nD τ).loc main_arg4) := by
  unfold Pipeline.afterTail₀
  rw [StableHlo.after_of_writes_sub (W := sfxW) _ _ sfx_flat_writes (by decide),
    Pipeline.withArrays_of_ne _ c (V0 m c) _ main_arg4 (by exact (by decide : ∀ w, Pipeline.arrRef spec0 w ≠ main_arg4))]
  exact V_main_arg4 m c
/-- No stretch after the region writes argument 5, and it is none of the region's arrays: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) sfxOps c main_arg5 = m ((c : Thread nD τ).loc main_arg5) := by
  unfold Pipeline.afterTail₀
  rw [StableHlo.after_of_writes_sub (W := sfxW) _ _ sfx_flat_writes (by decide),
    Pipeline.withArrays_of_ne _ c (V0 m c) _ main_arg5 (by exact (by decide : ∀ w, Pipeline.arrRef spec0 w ≠ main_arg5))]
  exact V_main_arg5 m c
/-- No stretch after the region writes argument 6, and it is none of the region's arrays: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) sfxOps c main_arg6 = m ((c : Thread nD τ).loc main_arg6) := by
  unfold Pipeline.afterTail₀
  rw [StableHlo.after_of_writes_sub (W := sfxW) _ _ sfx_flat_writes (by decide),
    Pipeline.withArrays_of_ne _ c (V0 m c) _ main_arg6 (by exact (by decide : ∀ w, Pipeline.arrRef spec0 w ≠ main_arg6))]
  exact V_main_arg6 m c
/-- No stretch after the region writes argument 7, and it is none of the region's arrays: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) sfxOps c main_arg7 = m ((c : Thread nD τ).loc main_arg7) := by
  unfold Pipeline.afterTail₀
  rw [StableHlo.after_of_writes_sub (W := sfxW) _ _ sfx_flat_writes (by decide),
    Pipeline.withArrays_of_ne _ c (V0 m c) _ main_arg7 (by exact (by decide : ∀ w, Pipeline.arrRef spec0 w ≠ main_arg7))]
  exact V_main_arg7 m c

/-! ## The windows' blocks -/

/-- Window `w`'s block at point `t`, cut from its array as the region finds it: for window 0 the `1536 × 1536` block
    `(i, k)` of `Lsym`, for window 1 the `1536 × 64` block `k` of `Z`, where `t = 8 i + k`. -/
def blockIn (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of `Lsym`'s window holds block `(i, k)` at every point, whether the pipeline fetched there or
    not (it does at every point), for any proof data over `V` whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = blockIn m c 0 t) (t : Fin cfg0.N) (d) : dat.before 0 t d = blockIn m c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-- The staging buffer of `Z`'s window holds block `k` at every point, likewise. -/
theorem before_in1_of {c : Dev nD} (dat : Dat τ (Elt F) Unit ℕ (UR sig nD τ) ℕ cfg0 c) (hA : dat.A 1 = V m c (Pipeline.arrRef spec0 1))
    (hafter : ∀ t, dat.after 1 t = blockIn m c 1 t) (t : Fin cfg0.N) (d) : dat.before 1 t d = blockIn m c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

/-! ## The frame claim's post from a frame run's -/

/-- The eight argument arrays end as launched, from the frame run's post: `Lsym`'s array is window 0's, an input, which
    the pipeline leaves at its entry contents; the other seven bypass the region and no later stretch writes them. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) sfxOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (W_main_arg0 m dats c),
   ((h c).2 main_arg1 (Pipeline.mem_restRefs_of main_arg1 (by decide) (by decide))).trans (W_main_arg1 m dats c),
   ((h c).1 0).trans (((dats 0 c).arrAt_in 0 rfl _).trans ((hA c 0).trans (V_main_arg2 m c))),
   ((h c).2 main_arg3 (Pipeline.mem_restRefs_of main_arg3 (by decide) (by decide))).trans (W_main_arg3 m dats c),
   ((h c).2 main_arg4 (Pipeline.mem_restRefs_of main_arg4 (by decide) (by decide))).trans (W_main_arg4 m dats c),
   ((h c).2 main_arg5 (Pipeline.mem_restRefs_of main_arg5 (by decide) (by decide))).trans (W_main_arg5 m dats c),
   ((h c).2 main_arg6 (Pipeline.mem_restRefs_of main_arg6 (by decide) (by decide))).trans (W_main_arg6 m dats c),
   ((h c).2 main_arg7 (Pipeline.mem_restRefs_of main_arg7 (by decide) (by decide))).trans (W_main_arg7 m dats c)⟩

/-- THE FRAME from a frame run: a run of @main to the library's frame post, for any proof data over `V`, is a run to
    the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) sfxOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m dats hA r h c) h

/-! ## The body's two conditions

The body zeroes the accumulator under `k = 0` and stores it to the output block under `k = 7`, where `k` is the
second grid coordinate: at point `t = 8 i + k` these are `t % 8 = 0` and `t % 8 = 7`. -/

/-- The body's first condition, `k = 0`, as it computes it from the grid coordinates. -/
abbrev atFirst (i : grid0.Coords) : Prop := (Scalar.cmpi .ne (Scalar.extui (Scalar.cmpi .eq (BitVec.ofNat 32 (i 1).val) 0#32)) 0#32) = 1#1
/-- It holds exactly at the first point of each row block's group of eight. -/
theorem atFirst_iff : ∀ t : Fin cfg0.N, atFirst (grid0.coords t) ↔ t.val % 8 = 0 :=
  (by decide +kernel : ∀ t : Fin grid0.N, atFirst (grid0.coords t) ↔ t.val % 8 = 0)

/-- The body's second condition, `k = 7`. -/
abbrev atLast (i : grid0.Coords) : Prop := k0_cond2 i = 1#1
/-- It holds exactly at the last point of each group of eight. -/
theorem atLast_iff : ∀ t : Fin cfg0.N, atLast (grid0.coords t) ↔ t.val % 8 = 7 :=
  (by decide +kernel : ∀ t : Fin grid0.N, atLast (grid0.coords t) ↔ t.val % 8 = 7)

/-! ## Where the windows are live

The two inputs are read at every point. The output block is stored only at `k = 7`: at the other points of a group the
body leaves its staging buffer alone and the pipeline does not write it back. -/

/-- `Lsym`'s window is live at every point. -/
theorem live0 : ∀ t : Fin cfg0.N, cfg0.idle 0 (grid0.coords t) = false := by decide +kernel
/-- `Z`'s window is live at every point. -/
theorem live1 : ∀ t : Fin cfg0.N, cfg0.idle 1 (grid0.coords t) = false := by decide +kernel
/-- At `k = 0` the output window is idle, -/
theorem idleOut_first : ∀ t : Fin cfg0.N, atFirst (grid0.coords t) → ¬atLast (grid0.coords t) → cfg0.idle 2 (grid0.coords t) = true := by decide +kernel
/-- and not written back. -/
theorem noFlush_first : ∀ t : Fin cfg0.N, atFirst (grid0.coords t) → ¬atLast (grid0.coords t) → (cfg0.win 2).flush t = false := by decide +kernel
/-- At `0 < k < 7` the output window is idle, -/
theorem idleOut_mid : ∀ t : Fin cfg0.N, ¬atFirst (grid0.coords t) → ¬atLast (grid0.coords t) → cfg0.idle 2 (grid0.coords t) = true := by decide +kernel
/-- and not written back. -/
theorem noFlush_mid : ∀ t : Fin cfg0.N, ¬atFirst (grid0.coords t) → ¬atLast (grid0.coords t) → (cfg0.win 2).flush t = false := by decide +kernel
/-- At `k = 7` the output window is live: the accumulated block is stored into it. -/
theorem liveOut_last : ∀ t : Fin cfg0.N, ¬atFirst (grid0.coords t) → atLast (grid0.coords t) → cfg0.idle 2 (grid0.coords t) = false := by decide +kernel

/-! ## The memrefs the body is called on -/

/-- One staging buffer of the output window, as a view: the output block's contents are stated through it (which of the
    two buffers is chosen does not matter, they have one shape). -/
abbrev outView : View sig .tc .vmem S1536x64 .f32 := (Memref.whole cc0_stg2_0 : Memref sig .tc .vmem S1536x64 .f32).view

/-- The current staging memref of each window at point `t`, and that it is a whole buffer. -/
abbrev stIn0 (t : Fin cfg0.N) : Memref sig .tc .vmem S1536x1536 .f32 := win0_0.stage (cfg0.slots t 0)
abbrev hstIn0 (t : Fin cfg0.N) : (stIn0 t).IsWhole := hstage0_0 ((cfg0.slots t 0).cast nbuf0_0)
abbrev stIn1 (t : Fin cfg0.N) : Memref sig .tc .vmem S1536x64 .f32 := win0_1.stage (cfg0.slots t 1)
abbrev hstIn1 (t : Fin cfg0.N) : (stIn1 t).IsWhole := hstage0_1 ((cfg0.slots t 1).cast nbuf0_1)
abbrev stOut (t : Fin cfg0.N) : Memref sig .tc .vmem S1536x64 .f32 := win0_2.stage (cfg0.slots t 2)
abbrev hstOut (t : Fin cfg0.N) : (stOut t).IsWhole := hstage0_2 ((cfg0.slots t 2).cast nbuf0_2)

/-- The accumulator: a whole `1536 × 64` buffer of the kernel's own, carried from point to point. -/
abbrev accM : Memref sig .tc .vmem S1536x64 .f32 := Memref.whole cc0_scratch0
/-- The accumulator as a view: its contents are stated through it. -/
abbrev accView : View sig .tc .vmem S1536x64 .f32 := accM.view

/-- What the launch hands the region besides the windows: the accumulator, owned at some contents, and the generator
    register at some state. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Fr

end
-- ==== Proof.K.RunA.lean ====
/- The matmul body at the FIRST point of a group of eight (contraction block k = 0, not k = 7).

   One grid point (i, k) of Hh = Lsym @ Z holds a 1536x1536 block A of Lsym (arg2), a 1536x64 block B of Z
   (arg3), the 1536x64 output block (arg4) and the carried 1536x64 accumulator (arg5). At k = 0 the body
   overwrites the whole accumulator with zeros and then with 0 + A·B, so the accumulator's contents before the
   point do not matter; the output block is neither read nor written. -/
import proofs.«147044_j22316650070954_1_alg».proof.Proof.K.Runs

-- the boxes loaded and stored here are whole 1536x1536 and 1536x64 blocks: deciding that a coordinate lies in
-- such a box recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body's triple at k = 0 (and k ≠ 7), with the pieces it leaves as witness. Given the two input blocks
    owned whole at `x0`, `x1`, the output block owned at any `xi2`, and the accumulator owned at ANY contents,
    the body runs to a continuation that gets back the inputs and the output block exactly as they were and the
    accumulator's buffer with the list `LS0` of pieces written over it, last store first: the accumulation
    `k0_pay2 x0 x1 (zeros)` over the whole block, on top of the zero fill `k0_pay1` over the whole block. The
    output block's own list of pieces (first component) is empty: nothing is stored there at this point. -/
noncomputable def bodyRunFirst (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : atFirst i) (hc1 : ¬atLast i)
    (x0 : Vec F S1536x1536 .f32) (x1 : Vec F S1536x64 .f32) :
    Σ' (L2 : List (View.Piece (Elt F) S1536x64 .f32)), { LS0 : List (View.Piece (Elt F) S1536x64 .f32) //
      ∀ (xi2 : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__lsym_matmul_kernel i arg2 harg2 arg3 harg3 arg4 harg4 arg5 harg5) K } := by
  refine ⟨[], ?_, fun xi2 E K => ?run⟩
  case run =>
    simp only [cc0__lsym_matmul_kernel_eq_skeleton]; unfold cc0__lsym_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.RunB.lean ====
/- The matmul body at an INNER point of a group of eight (contraction block 0 < k < 7).

   Neither branch is taken: the body reads the blocks A (arg2), B (arg3) and the accumulator (arg5) as the
   point before left it, and overwrites the whole accumulator with acc + A·B. The output block (arg4) is neither
   read nor written. -/
import proofs.«147044_j22316650070954_1_alg».proof.Proof.K.RunA

-- the boxes loaded and stored here are whole 1536x1536 and 1536x64 blocks: deciding that a coordinate lies in
-- such a box recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body's triple at 0 < k < 7, with the pieces it leaves as witness. Given the two input blocks owned whole
    at `x0`, `x1`, the output block owned at any `xi2`, and the accumulator owned at the contents `xs0` carried
    from the point before, the body runs to a continuation that gets back the inputs and the output block exactly
    as they were and the accumulator's buffer with `LS0` written over it: the one whole-block store of
    `k0_pay2 x0 x1 xs0`. The output block's own list of pieces (first component) is empty. -/
noncomputable def bodyRunMid (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : ¬atLast i)
    (x0 : Vec F S1536x1536 .f32) (x1 : Vec F S1536x64 .f32) (xs0 : Vec F S1536x64 .f32) :
    Σ' (L2 : List (View.Piece (Elt F) S1536x64 .f32)), { LS0 : List (View.Piece (Elt F) S1536x64 .f32) //
      ∀ (xi2 : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__lsym_matmul_kernel i arg2 harg2 arg3 harg3 arg4 harg4 arg5 harg5) K } := by
  refine ⟨[], ?_, fun xi2 E K => ?run⟩
  case run =>
    simp only [cc0__lsym_matmul_kernel_eq_skeleton]; unfold cc0__lsym_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.RunC.lean ====
/- The matmul body at the LAST point of a group of eight (contraction block k = 7).

   The first branch is not taken, the second is: the body overwrites the whole accumulator (arg5) with
   acc + A·B, where acc is what the point before left, then copies the whole accumulator into the output block
   (arg4), whose previous contents do not matter. -/
import proofs.«147044_j22316650070954_1_alg».proof.Proof.K.RunB

-- the boxes loaded and stored here are whole 1536x1536 and 1536x64 blocks: deciding that a coordinate lies in
-- such a box recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body's triple at k = 7 (and k ≠ 0), with the pieces it leaves as witness. Given the two input blocks
    owned whole at `x0`, `x1`, the output block owned at ANY contents, and the accumulator owned at the contents
    `xs0` carried from the point before, the body runs to a continuation that gets back the inputs as they were,
    the output block's buffer with `L2` written over it (one whole-block store of the final accumulator) and the
    accumulator's buffer with `LS0` written over it (the whole-block store of `k0_pay2 x0 x1 xs0`). -/
noncomputable def bodyRunLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) :
    Σ' (L2 : List (View.Piece (Elt F) S1536x64 .f32)), { LS0 : List (View.Piece (Elt F) S1536x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__lsym_matmul_kernel i arg2 harg2 arg3 harg3 arg4 harg4 arg5 harg5) K } := by
  refine ⟨?_, ?_, fun E K => ?run⟩
  case run =>
    simp only [cc0__lsym_matmul_kernel_eq_skeleton]; unfold cc0__lsym_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Frame.lean ====
import proofs.«147044_j22316650070954_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves

The body's stores are found by running it (the three runs); here their pieces are read back as contents. In every case
the accumulator's last store is of the whole `1536 × 64` buffer, so its pieces cover it; at `k = 7` the one store into
the output block is of the whole block. -/

/-- At `k = 0` the accumulator's pieces (the zero fill, then `0 + Lsym_blk · Z_blk`) cover it. -/
theorem accCoverFirst (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : atFirst i) (hc1 : ¬atLast i)
    (x0 : Vec F S1536x1536 .f32) (x1 : Vec F S1536x64 .f32) (y : S1536x64.Idx) :
    ∃ pc ∈ (bodyRunFirst c i arg2 harg2 arg3 harg3 arg4 harg4 arg5 harg5 hc0 hc1 x0 x1).2.1, y ∈ pc.1.set :=
  View.cover_of_tiledL (bodyRunFirst c i arg2 harg2 arg3 harg3 arg4 harg4 arg5 harg5 hc0 hc1 x0 x1).2.1 S1536x64.size (by sl_kernel_rfl) y

/-- The accumulator after the body at `k = 0`: `Lsym_blk · Z_blk` added to the zero fill. -/
def accFirst (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : atFirst i) (hc1 : ¬atLast i)
    (x0 : Vec F S1536x1536 .f32) (x1 : Vec F S1536x64 .f32) : Vec F S1536x64 .f32 :=
  accView.read (Elt F) (accView.writes (Elt F) accView.junk (bodyRunFirst c i arg2 harg2 arg3 harg3 arg4 harg4 arg5 harg5 hc0 hc1 x0 x1).2.1)

/-- At `k = 0` the body stores nothing into the output block: a placeholder (no pieces over arbitrary contents) that
    nothing reads, the block being neither written back there nor consulted at the next point. -/
def outIdleFirst (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : atFirst i) (hc1 : ¬atLast i)
    (x0 : Vec F S1536x1536 .f32) (x1 : Vec F S1536x64 .f32) : Vec F S1536x64 .f32 :=
  outView.read (Elt F) (outView.writes (Elt F) outView.junk (bodyRunFirst c i arg2 harg2 arg3 harg3 arg4 harg4 arg5 harg5 hc0 hc1 x0 x1).1)

/-- At `0 < k < 7` the accumulator's one piece (`acc + Lsym_blk · Z_blk`) covers it. -/
theorem accCoverMid (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : ¬atLast i)
    (x0 : Vec F S1536x1536 .f32) (x1 : Vec F S1536x64 .f32) (xs0 : Vec F S1536x64 .f32) (y : S1536x64.Idx) :
    ∃ pc ∈ (bodyRunMid c i arg2 harg2 arg3 harg3 arg4 harg4 arg5 harg5 hc0 hc1 x0 x1 xs0).2.1, y ∈ pc.1.set :=
  View.cover_of_tiledL (bodyRunMid c i arg2 harg2 arg3 harg3 arg4 harg4 arg5 harg5 hc0 hc1 x0 x1 xs0).2.1 S1536x64.size (by sl_kernel_rfl) y

/-- The accumulator after the body at `0 < k < 7`: `xs0 + Lsym_blk · Z_blk`. -/
def accMid (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : ¬atLast i)
    (x0 : Vec F S1536x1536 .f32) (x1 : Vec F S1536x64 .f32) (xs0 : Vec F S1536x64 .f32) : Vec F S1536x64 .f32 :=
  accView.read (Elt F) (accView.writes (Elt F) accView.junk (bodyRunMid c i arg2 harg2 arg3 harg3 arg4 harg4 arg5 harg5 hc0 hc1 x0 x1 xs0).2.1)

/-- At `0 < k < 7` the body stores nothing into the output block: a placeholder, as at `k = 0`. -/
def outIdleMid (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : ¬atLast i)
    (x0 : Vec F S1536x1536 .f32) (x1 : Vec F S1536x64 .f32) (xs0 : Vec F S1536x64 .f32) : Vec F S1536x64 .f32 :=
  outView.read (Elt F) (outView.writes (Elt F) outView.junk (bodyRunMid c i arg2 harg2 arg3 harg3 arg4 harg4 arg5 harg5 hc0 hc1 x0 x1 xs0).1)

/-- At `k = 7` the accumulator's one piece covers it. -/
theorem accCoverLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) (y : S1536x64.Idx) :
    ∃ pc ∈ (bodyRunLast c i arg2 harg2 arg3 harg3 arg4 harg4 arg5 harg5 hc0 hc1 x0 x1 xs0).2.1, y ∈ pc.1.set :=
  View.cover_of_tiledL (bodyRunLast c i arg2 harg2 arg3 harg3 arg4 harg4 arg5 harg5 hc0 hc1 x0 x1 xs0).2.1 S1536x64.size (by sl_kernel_rfl) y

/-- At `k = 7` the one store into the output block is of the whole block. -/
theorem outCoverLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) (y : S1536x64.Idx) :
    ∃ pc ∈ (bodyRunLast c i arg2 harg2 arg3 harg3 arg4 harg4 arg5 harg5 hc0 hc1 x0 x1 xs0).1, y ∈ pc.1.set :=
  View.cover_of_tiledL (bodyRunLast c i arg2 harg2 arg3 harg3 arg4 harg4 arg5 harg5 hc0 hc1 x0 x1 xs0).1 S1536x64.size (by sl_kernel_rfl) y

/-- The accumulator after the body at `k = 7`: `xs0 + Lsym_blk · Z_blk`, the finished row block of `Lsym · Z`. -/
def accLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) : Vec F S1536x64 .f32 :=
  accView.read (Elt F) (accView.writes (Elt F) accView.junk (bodyRunLast c i arg2 harg2 arg3 harg3 arg4 harg4 arg5 harg5 hc0 hc1 x0 x1 xs0).2.1)

/-- The output block after the body at `k = 7`: the accumulator's final contents, copied. -/
def outLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) : Vec F S1536x64 .f32 :=
  outView.read (Elt F) (outView.writes (Elt F) outView.junk (bodyRunLast c i arg2 harg2 arg3 harg3 arg4 harg4 arg5 harg5 hc0 hc1 x0 x1 xs0).1)

/-! ## The accumulation, point by point -/

/-- THE ACCUMULATION. What the output window's staging buffer (first component) and the accumulator (second) hold after
    the body at position `n = 8 i + k`: at `k = 0` the accumulator restarts from the zero fill; at `k > 0` it adds this
    point's `Lsym_blk · Z_blk` to what position `n - 1` left; at `k = 7` the output block receives it. No position has
    both `k = 0` and `k = 7`. -/
def pointState (c : Dev nD) : (n : ℕ) → n < cfg0.N → Vec F S1536x64 .f32 × Vec F S1536x64 .f32
  | 0, hn =>
    (outIdleFirst c (grid0.coords ⟨0, hn⟩) (stIn0 ⟨0, hn⟩) (hstIn0 ⟨0, hn⟩) (stIn1 ⟨0, hn⟩) (hstIn1 ⟨0, hn⟩) (stOut ⟨0, hn⟩) (hstOut ⟨0, hn⟩) accM (Memref.isWhole_whole _) ((atFirst_iff ⟨0, hn⟩).mpr (Nat.zero_mod _)) (fun h => (fun h => by (try dsimp only at h); omega) ((atLast_iff ⟨0, hn⟩).mp h)) (blockIn m c 0 ⟨0, hn⟩) (blockIn m c 1 ⟨0, hn⟩),
     accFirst c (grid0.coords ⟨0, hn⟩) (stIn0 ⟨0, hn⟩) (hstIn0 ⟨0, hn⟩) (stIn1 ⟨0, hn⟩) (hstIn1 ⟨0, hn⟩) (stOut ⟨0, hn⟩) (hstOut ⟨0, hn⟩) accM (Memref.isWhole_whole _) ((atFirst_iff ⟨0, hn⟩).mpr (Nat.zero_mod _)) (fun h => (fun h => by (try dsimp only at h); omega) ((atLast_iff ⟨0, hn⟩).mp h)) (blockIn m c 0 ⟨0, hn⟩) (blockIn m c 1 ⟨0, hn⟩))
  | n + 1, hn =>
    if h0 : (n + 1) % 8 = 0 then
      if h1 : (n + 1) % 8 = 7 then
        False.elim (by omega)
      else
        (outIdleFirst c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) ((atFirst_iff ⟨n + 1, hn⟩).mpr h0) (fun h => h1 ((atLast_iff ⟨n + 1, hn⟩).mp h)) (blockIn m c 0 ⟨n + 1, hn⟩) (blockIn m c 1 ⟨n + 1, hn⟩),
         accFirst c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) ((atFirst_iff ⟨n + 1, hn⟩).mpr h0) (fun h => h1 ((atLast_iff ⟨n + 1, hn⟩).mp h)) (blockIn m c 0 ⟨n + 1, hn⟩) (blockIn m c 1 ⟨n + 1, hn⟩))
    else
      if h1 : (n + 1) % 8 = 7 then
        (outLast c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) (fun h => h0 ((atFirst_iff ⟨n + 1, hn⟩).mp h)) ((atLast_iff ⟨n + 1, hn⟩).mpr h1) (blockIn m c 0 ⟨n + 1, hn⟩) (blockIn m c 1 ⟨n + 1, hn⟩) (pointState c n (Nat.lt_of_succ_lt hn)).2,
         accLast c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) (fun h => h0 ((atFirst_iff ⟨n + 1, hn⟩).mp h)) ((atLast_iff ⟨n + 1, hn⟩).mpr h1) (blockIn m c 0 ⟨n + 1, hn⟩) (blockIn m c 1 ⟨n + 1, hn⟩) (pointState c n (Nat.lt_of_succ_lt hn)).2)
      else
        (outIdleMid c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) (fun h => h0 ((atFirst_iff ⟨n + 1, hn⟩).mp h)) (fun h => h1 ((atLast_iff ⟨n + 1, hn⟩).mp h)) (blockIn m c 0 ⟨n + 1, hn⟩) (blockIn m c 1 ⟨n + 1, hn⟩) (pointState c n (Nat.lt_of_succ_lt hn)).2,
         accMid c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) (fun h => h0 ((atFirst_iff ⟨n + 1, hn⟩).mp h)) (fun h => h1 ((atLast_iff ⟨n + 1, hn⟩).mp h)) (blockIn m c 0 ⟨n + 1, hn⟩) (blockIn m c 1 ⟨n + 1, hn⟩) (pointState c n (Nat.lt_of_succ_lt hn)).2)

/-- `pointState` at a point with `k = 0`. -/
theorem pointState_first (c : Dev nD) (t : Fin cfg0.N) (h0 : t.val % 8 = 0) (h1 : ¬t.val % 8 = 7) :
    pointState m c t.val t.isLt =
      (outIdleFirst c (grid0.coords t) (stIn0 t) (hstIn0 t) (stIn1 t) (hstIn1 t) (stOut t) (hstOut t) accM (Memref.isWhole_whole _) ((atFirst_iff t).mpr h0) (fun h => h1 ((atLast_iff t).mp h)) (blockIn m c 0 t) (blockIn m c 1 t),
       accFirst c (grid0.coords t) (stIn0 t) (hstIn0 t) (stIn1 t) (hstIn1 t) (stOut t) (hstOut t) accM (Memref.isWhole_whole _) ((atFirst_iff t).mpr h0) (fun h => h1 ((atLast_iff t).mp h)) (blockIn m c 0 t) (blockIn m c 1 t)) := by
  obtain ⟨n, hn⟩ := t
  cases n with
  | zero => exact rfl
  | succ n => exact (dif_pos h0).trans ((dif_neg h1).trans rfl)

/-- `pointState` at a point with `0 < k < 7`: over what the point before left in the accumulator. -/
theorem pointState_mid (c : Dev nD) (t : Fin cfg0.N) (h0 : ¬t.val % 8 = 0) (h1 : ¬t.val % 8 = 7) :
    pointState m c t.val t.isLt =
      (outIdleMid c (grid0.coords t) (stIn0 t) (hstIn0 t) (stIn1 t) (hstIn1 t) (stOut t) (hstOut t) accM (Memref.isWhole_whole _) (fun h => h0 ((atFirst_iff t).mp h)) (fun h => h1 ((atLast_iff t).mp h)) (blockIn m c 0 t) (blockIn m c 1 t) (pointState m c (t.val - 1) (Nat.lt_of_le_of_lt (Nat.sub_le _ _) t.isLt)).2,
       accMid c (grid0.coords t) (stIn0 t) (hstIn0 t) (stIn1 t) (hstIn1 t) (stOut t) (hstOut t) accM (Memref.isWhole_whole _) (fun h => h0 ((atFirst_iff t).mp h)) (fun h => h1 ((atLast_iff t).mp h)) (blockIn m c 0 t) (blockIn m c 1 t) (pointState m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `pointState` at a point with `k = 7`: over what the point before left in the accumulator. -/
theorem pointState_last (c : Dev nD) (t : Fin cfg0.N) (h0 : ¬t.val % 8 = 0) (h1 : t.val % 8 = 7) :
    pointState m c t.val t.isLt =
      (outLast c (grid0.coords t) (stIn0 t) (hstIn0 t) (stIn1 t) (hstIn1 t) (stOut t) (hstOut t) accM (Memref.isWhole_whole _) (fun h => h0 ((atFirst_iff t).mp h)) ((atLast_iff t).mpr h1) (blockIn m c 0 t) (blockIn m c 1 t) (pointState m c (t.val - 1) (Nat.lt_of_le_of_lt (Nat.sub_le _ _) t.isLt)).2,
       accLast c (grid0.coords t) (stIn0 t) (hstIn0 t) (stIn1 t) (hstIn1 t) (stOut t) (hstOut t) accM (Memref.isWhole_whole _) (fun h => h0 ((atFirst_iff t).mp h)) ((atLast_iff t).mpr h1) (blockIn m c 0 t) (blockIn m c 1 t) (pointState m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at `n = 0` what the launch hands over (the accumulator at anything); afterwards the
    accumulator owned at what position `n - 1` left in it, and the generator register at some state. -/
def accInv (c : Dev nD) : (n : ℕ) → n ≤ cfg0.N → sProp 𝕄
  | 0, _ => Pipeline.ΦA spec0 c
  | n + 1, hn => iprop(iprop(owns (c : Thread nD τ) accM fullShare ((pointState m c n hn).2)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) accM fullShare ((pointState m c n hn).2)) ∗ (∃ r, prngReg c r)) := rfl

theorem accInv_pos (c : Dev nD) (n : ℕ) (h : n ≤ cfg0.N) (hz : n ≠ 0) :
    accInv m c n h = iprop(iprop(owns (c : Thread nD τ) accM fullShare ((pointState m c (n - 1) (by omega)).2)) ∗ (∃ r, prngReg c r)) := by
  cases n with
  | zero => exact absurd rfl hz
  | succ n => rfl

/-! ## The pipeline's proof data -/

/-- The proof data on core `c`: the three arrays as the region finds them; after the body at point `t` the two input
    buffers still at their blocks and the output buffer at `pointState`'s first component; the invariant `accInv`;
    full shares; nothing owed. -/
def pdata (_ : Fin 1) (c : Dev nD) : Dat τ (Elt F) Unit ℕ (UR sig nD τ) ℕ cfg0 c where
  A w := V m c (Pipeline.arrRef spec0 w)
  after w t := match w with
    | ⟨0, _⟩ => blockIn m c 0 t
    | ⟨1, _⟩ => blockIn m c 1 t
    | ⟨2, _⟩ => (pointState m c t.val t.isLt).1
  Φ t := accInv m c t.val (Nat.le_of_lt_succ t.isLt)
  q _ := fullShare
  owed _ := 0

theorem pdata_A (c : Dev nD) (w : Fin cfg0.W) : (pdata m 0 c).A w = V m c (Pipeline.arrRef spec0 w) := by
  dsimp only [pdata]

theorem accInv_castSucc (c : Dev nD) (t : Fin cfg0.N) :
    (pdata m 0 c).Φ t.castSucc = accInv m c t.val (Nat.le_of_lt t.isLt) := by
  dsimp only [pdata]; simp only [Fin.coe_castSucc]

theorem pdata_after_in0 (c : Dev nD) (t : Fin cfg0.N) : (pdata m 0 c).after 0 t = blockIn m c 0 t := by dsimp only [pdata]
theorem pdata_after_in1 (c : Dev nD) (t : Fin cfg0.N) : (pdata m 0 c).after 1 t = blockIn m c 1 t := by dsimp only [pdata]
theorem pdata_after_out (c : Dev nD) (t : Fin cfg0.N) : (pdata m 0 c).after 2 t = (pointState m c t.val t.isLt).1 := by dsimp only [pdata]

/-- Each input's staging buffer holds its block when the body is called. -/
theorem before_in0 (c : Dev nD) (t : Fin cfg0.N) (d) : (pdata m 0 c).before 0 t d = blockIn m c 0 t :=
  before_in0_of m (pdata m 0 c) (pdata_A m c 0) (pdata_after_in0 m c) t d
theorem before_in1 (c : Dev nD) (t : Fin cfg0.N) (d) : (pdata m 0 c).before 1 t d = blockIn m c 1 t :=
  before_in1_of m (pdata m 0 c) (pdata_A m c 1) (pdata_after_in1 m c) t d

/-! ## The body obligation -/

/-- What the body is called with at point `t`: the invariant, the core's debts, and the three windows' current
    staging buffers, -/
def bodyPre (c : Dev nD) (t : Fin cfg0.N) : sProp 𝕄 :=
  iprop((pdata m 0 c).Φ t.castSucc ∗ (pdata m 0 c).owesAt () t.castSucc
    ∗ (∃ d, owns (c : Thread nD τ) (stIn0 t) fullShare ((pdata m 0 c).before 0 t d))
    ∗ (∃ d, owns (c : Thread nD τ) (stIn1 t) fullShare ((pdata m 0 c).before 1 t d))
    ∗ (∃ d, owns (c : Thread nD τ) (stOut t) fullShare ((pdata m 0 c).before 2 t d)))

/-- and what it returns. -/
def bodyPost (c : Dev nD) (t : Fin cfg0.N) : sProp 𝕄 :=
  iprop((pdata m 0 c).Φ t.succ ∗ (pdata m 0 c).owesAt () t.succ
    ∗ (pdata m 0 c).leavesExact 0 t
    ∗ (pdata m 0 c).leavesExact 1 t
    ∗ (pdata m 0 c).leavesExact 2 t)

set_option maxHeartbeats 4800000 in
/-- The body at any point `t = 8 i + k`. The inputs' buffers hold block `(i, k)` of `Lsym` and block `k` of `Z`. By
    cases on `k`: at `k = 0` the accumulator is taken at anything (from the launch at `t = 0`, from the previous group
    otherwise) and handed back at `accFirst`; at `0 < k < 7` it is taken at what `t - 1` left and handed back at
    `accMid`; in both the output buffer goes back untouched. At `k = 7` the accumulator is taken at what `t - 1` left,
    handed back at `accLast`, and the output buffer, taken at anything, is handed back at `outLast`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (pdata m 0 c).owesAt () t.succ = (pdata m 0 c).owesAt () t.castSucc from rfl]
  rw [show (pdata m 0 c).Φ t.succ = accInv m c (t.val + 1) t.isLt from rfl, accInv_succ]
  have hN : t.val < 64 := lt_of_lt_of_eq t.isLt (show cfg0.N = 64 from N_0)
  by_cases h0 : t.val % 8 = 0
  · by_cases h1 : t.val % 8 = 7
    · exfalso; omega
    · rw [show (pdata m 0 c).leavesExact 0 t = owns (c : Thread nD τ) (stIn0 t) fullShare ((pdata m 0 c).after 0 t) from by
        unfold Dat.leavesExact; rw [live0 t], pdata_after_in0]
      rw [show (pdata m 0 c).leavesExact 1 t = owns (c : Thread nD τ) (stIn1 t) fullShare ((pdata m 0 c).after 1 t) from by
        unfold Dat.leavesExact; rw [live1 t], pdata_after_in1]
      rw [Dat.leavesExact_idle (pdata m 0 c) 2 t (idleOut_first t ((atFirst_iff t).mpr h0) (fun h => h1 ((atLast_iff t).mp h))) (noFlush_first t ((atFirst_iff t).mpr h0) (fun h => h1 ((atLast_iff t).mp h)))]
      rw [pointState_first m c t h0 h1]
      unfold accFirst; (try dsimp only)
      by_cases hz : t.val = 0
      · rw [accInv_castSucc m c t, accInv_zero m c _ _ hz, classInv_eq]
        iintro ⟨⟨HS0, Hg⟩, Ho, ⟨%d0, H0⟩, ⟨%d1, H1⟩, ⟨%d2, H2⟩⟩
        iapply ((bodyRunFirst c (grid0.coords t) _ _ _ _ _ _ _ _ ((atFirst_iff t).mpr h0) (fun h => h1 ((atLast_iff t).mp h)) (blockIn m c 0 t) (blockIn m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (accCoverFirst _ _ _ _ _ _ _ _ _ _ _ _ _ _)
          iexact Hg
        isplitl [Ho]; · iexact Ho
        isplitl [H0]; · iexact H0
        isplitl [H1]; · iexact H1
        iexists _; iexact H2
      · rw [accInv_castSucc m c t, accInv_pos m c _ _ hz]
        iintro ⟨⟨HS0, Hg⟩, Ho, ⟨%d0, H0⟩, ⟨%d1, H1⟩, ⟨%d2, H2⟩⟩
        iapply ((bodyRunFirst c (grid0.coords t) _ _ _ _ _ _ _ _ ((atFirst_iff t).mpr h0) (fun h => h1 ((atLast_iff t).mp h)) (blockIn m c 0 t) (blockIn m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (accCoverFirst _ _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (pdata m 0 c).leavesExact 0 t = owns (c : Thread nD τ) (stIn0 t) fullShare ((pdata m 0 c).after 0 t) from by
        unfold Dat.leavesExact; rw [live0 t], pdata_after_in0]
      rw [show (pdata m 0 c).leavesExact 1 t = owns (c : Thread nD τ) (stIn1 t) fullShare ((pdata m 0 c).after 1 t) from by
        unfold Dat.leavesExact; rw [live1 t], pdata_after_in1]
      rw [show (pdata m 0 c).leavesExact 2 t = owns (c : Thread nD τ) (stOut t) fullShare ((pdata m 0 c).after 2 t) from by
        unfold Dat.leavesExact; rw [liveOut_last t (fun h => h0 ((atFirst_iff t).mp h)) ((atLast_iff t).mpr h1)], pdata_after_out]
      rw [pointState_last m c t h0 h1]
      unfold outLast accLast; (try dsimp only)
      by_cases hz : t.val = 0
      · exfalso; omega
      · rw [accInv_castSucc m c t, accInv_pos m c _ _ hz]
        iintro ⟨⟨HS0, Hg⟩, Ho, ⟨%d0, H0⟩, ⟨%d1, H1⟩, ⟨%d2, H2⟩⟩
        iapply ((bodyRunLast c (grid0.coords t) _ _ _ _ _ _ _ _ (fun h => h0 ((atFirst_iff t).mp h)) ((atLast_iff t).mpr h1) (blockIn m c 0 t) (blockIn m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (accCoverLast _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (outCoverLast _ _ _ _ _ _ _ _ _ _ _ _ _ _ _)
    · rw [show (pdata m 0 c).leavesExact 0 t = owns (c : Thread nD τ) (stIn0 t) fullShare ((pdata m 0 c).after 0 t) from by
        unfold Dat.leavesExact; rw [live0 t], pdata_after_in0]
      rw [show (pdata m 0 c).leavesExact 1 t = owns (c : Thread nD τ) (stIn1 t) fullShare ((pdata m 0 c).after 1 t) from by
        unfold Dat.leavesExact; rw [live1 t], pdata_after_in1]
      rw [Dat.leavesExact_idle (pdata m 0 c) 2 t (idleOut_mid t (fun h => h0 ((atFirst_iff t).mp h)) (fun h => h1 ((atLast_iff t).mp h))) (noFlush_mid t (fun h => h0 ((atFirst_iff t).mp h)) (fun h => h1 ((atLast_iff t).mp h)))]
      rw [pointState_mid m c t h0 h1]
      unfold accMid; (try dsimp only)
      by_cases hz : t.val = 0
      · exfalso; omega
      · rw [accInv_castSucc m c t, accInv_pos m c _ _ hz]
        iintro ⟨⟨HS0, Hg⟩, Ho, ⟨%d0, H0⟩, ⟨%d1, H1⟩, ⟨%d2, H2⟩⟩
        iapply ((bodyRunMid c (grid0.coords t) _ _ _ _ _ _ _ _ (fun h => h0 ((atFirst_iff t).mp h)) (fun h => h1 ((atLast_iff t).mp h)) (blockIn m c 0 t) (blockIn m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (accCoverMid _ _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (pdata (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (pdata m 0 c).Φ 0 := by
  rw [show (pdata m 0 c).Φ 0 = accInv m c 0 (Nat.zero_le _) from rfl, accInv_zero m c 0 _ rfl]
  try exact Idealize.SL.BI.Entails.refl _

/-- After any point the invariant gives the launch's form back: what the accumulator holds is forgotten. -/
theorem inv_out (c : Dev nD) (t : Fin (cfg0.N + 1)) (ht : t.val ≠ 0) : (pdata m 0 c).Φ t ⊢ Pipeline.ΦA spec0 c := by
  rw [show (pdata m 0 c).Φ t = accInv m c t.val (Nat.le_of_lt_succ t.isLt) from rfl, accInv_pos m c _ _ ht, classInv_eq]
  iintro ⟨HS0, Hg⟩
  isplitl [HS0]
  · iexists _; iexact HS0
  iexact Hg

/-- In particular after the last point. -/
theorem hout (c : Dev nD) : (pdata m 0 c).Φ (Fin.last cfg0.N) ⊢ Pipeline.ΦA spec0 c :=
  inv_out m c _ (by rw [Fin.val_last]; have : cfg0.N = 64 := N_0; omega)

/-! ## The run and the frame -/

set_option backward.isDefEq.respectTransparency.types false in
/-- From any memory with zero counters, every weakly fair execution of @main terminates without fault, and ends with
    the region's three arrays at what the library computes from the proof data and every other unscoped buffer as the
    later host stretches leave it. -/
theorem run_main : θ_run defs (onTc (τ := τ) (main (F := F))) (s₀ m ρ) (Pipeline.FramePost cfgs (pdata m) 0 (Pipeline.afterTail₀ cfgs (pdata m) 0 (V0 m) sfxOps)) :=
  Pipeline.θ_run_frame_around_track cfgs (pdata m) (0 : Fin 1) launch0 defs₀ Variants.none m ρ main
    (hbody := fun c => (body_obligation m c).loose) (hshare := fun c => (pdata m 0 c).share_full fun _ => rfl)
    (howed := fun _ _ => rfl) (V₀ := V0 m) (opss := sfxOps) (hsub := sfx_sub) (hfresh := sfx_fresh) (hkeep := sfx_keeps)
    (hmain := hmain m Variants.none) (hA := pdata_A m) (hin := hin m) (hout := hout m)

/-- THE FRAME: @main runs, and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (pdata m) (pdata_A m) (run_main m ρ)

end Cert.Kernel.Fr

end
-- ==== Proof.KI.Runs.lean ====
import proofs.«147044_j22316650070954_1_alg».proof.Proof.Gen.KernelIdeal.Launch
import proofs.«147044_j22316650070954_1_alg».proof.Proof.Gen.KernelIdeal.Skeleton
import proofs.«147044_j22316650070954_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the one region

`forward` is: two host stretches computing `Z = relu (x · W_highᵀ)`, the region computing `Lsym · Z` block by
block, three host stretches computing the graph convolution and the final combination `aL • Hl + aH • Hh`. -/

/-- What core `c`'s buffers hold when the region is entered: the launch contents after the two host stretches
    that compute `Z`. -/
abbrev V0 (c : Dev nD) : Valuation τ sig (Elt F) := StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

/-- The three host stretches after the region (18, 3 and 45 operations). -/
abbrev sfxOps : List (List (HloOp τ sig (Elt F))) := [hostOps1, hostOps1_1, hostOps1_2]

/-! ### No host operation allocates -/

theorem hostOps0_fresh : (hostOps0 : List (HloOp τ sig (Elt F))).Forall fun op => op.fresh = ∅ := ⟨rfl, rfl⟩
theorem hostOps0_1_fresh : (hostOps0_1 : List (HloOp τ sig (Elt F))).Forall fun op => op.fresh = ∅ := ⟨rfl, rfl, rfl⟩
theorem hostOps1_fresh : (hostOps1 : List (HloOp τ sig (Elt F))).Forall fun op => op.fresh = ∅ := ⟨rfl, rfl, rfl, rfl, rfl, rfl, rfl, rfl, rfl, rfl, rfl, rfl, rfl, rfl, rfl, rfl, rfl, rfl⟩
theorem hostOps1_1_fresh : (hostOps1_1 : List (HloOp τ sig (Elt F))).Forall fun op => op.fresh = ∅ := ⟨rfl, rfl, rfl⟩
theorem hostOps1_2_fresh : (hostOps1_2 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### What the host operations write

Every host operation writes exactly its result buffer. The results of the stretches before the region are listed in
`preW`, those of the stretches after it in `sfxW`; no argument array is in either list, and neither `Lsym`'s array,
`Z`'s, nor the region's result is in `sfxW`. All the membership questions below are then decided on these two lists. -/

/-- The buffers written before the region: `W_highᵀ`, `x · W_highᵀ`, the constant `0`, its broadcast, `Z`. -/
abbrev preW : List (Ref sig .tc) := [main_v0, main_v1, main_call0_cst, main_call0_v0, main_v2]
/-- The 66 buffers written after the region. -/
abbrev sfxW : List (Ref sig .tc) := [main_v4, main_v5, main_v6, main_v7, main_v8, main_v9, main_v10, main_cst, main_v11, main_cst_0, main_v12, main_v13, main_v14, main_cst_1, main_v15, main_v16, main_v17, main_cst_2, main_call1_v0, main_call1_v1, main_v18, main_c, main_v19, main_v20, main_c_3, main_v21, main_v22, main_v23, main_v24, main_v25, main_c_4, main_v26, main_v27, main_c_5, main_v28, main_v29, main_v30, main_v31, main_v32, main_v33, main_v34, main_v35, main_c_6, main_v36, main_v37, main_c_7, main_v38, main_v39, main_v40, main_v41, main_v42, main_v43, main_v44, main_v45, main_cst_8, main_v46, main_v47, main_v48, main_v49, main_v50, main_v51, main_v52, main_v53, main_v54, main_v55, main_v56]

/-- A singleton `{y}` of device buffers lies in the image of a list holding `y`. -/
theorem wsub (y : Ref sig .tc) (W : List (Ref sig .tc)) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem hostOps0_writes : (hostOps0 : List (HloOp τ sig (Elt F))).Forall fun op => op.writes ⊆ (preW.map (Proc.devRef (τ := τ) .tc)).toFinset := ⟨wsub _ _ (by decide), wsub _ _ (by decide)⟩
theorem hostOps0_1_writes : (hostOps0_1 : List (HloOp τ sig (Elt F))).Forall fun op => op.writes ⊆ (preW.map (Proc.devRef (τ := τ) .tc)).toFinset := ⟨wsub _ _ (by decide), wsub _ _ (by decide), wsub _ _ (by decide)⟩
theorem hostOps1_writes : (hostOps1 : List (HloOp τ sig (Elt F))).Forall fun op => op.writes ⊆ (sfxW.map (Proc.devRef (τ := τ) .tc)).toFinset := ⟨wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide)⟩
theorem hostOps1_1_writes : (hostOps1_1 : List (HloOp τ sig (Elt F))).Forall fun op => op.writes ⊆ (sfxW.map (Proc.devRef (τ := τ) .tc)).toFinset := ⟨wsub _ _ (by decide), wsub _ _ (by decide), wsub _ _ (by decide)⟩
theorem hostOps1_2_writes : (hostOps1_2 : List (HloOp τ sig (Elt F))).Forall fun op => op.writes ⊆ (sfxW.map (Proc.devRef (τ := τ) .tc)).toFinset := ⟨wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide), wsub _ _ (by decide)⟩

/-- Every operation before the region writes inside `preW`. -/
theorem pre_writes : (List.flatten [hostOps0, hostOps0_1] : List (HloOp τ sig (Elt F))).Forall fun op => op.writes ⊆ (preW.map (Proc.devRef (τ := τ) .tc)).toFinset :=
  List.forall_iff_forall_mem.mpr fun op hop => by
    obtain ⟨ops, hops, h⟩ := List.mem_flatten.mp hop
    simp only [List.mem_cons, List.mem_nil_iff, or_false] at hops
    rcases hops with rfl | rfl
    · exact (List.forall_iff_forall_mem.mp hostOps0_writes) op h
    · exact (List.forall_iff_forall_mem.mp hostOps0_1_writes) op h

/-- Every operation after the region writes inside `sfxW`. -/
theorem sfx_writes : ∀ ops ∈ (sfxOps : List (List (HloOp τ sig (Elt F)))), ∀ op ∈ ops, op.writes ⊆ (sfxW.map (Proc.devRef (τ := τ) .tc)).toFinset := by
  intro ops hops op hop
  simp only [List.mem_cons, List.mem_nil_iff, or_false] at hops
  rcases hops with rfl | rfl | rfl
  · exact (List.forall_iff_forall_mem.mp hostOps1_writes) op hop
  · exact (List.forall_iff_forall_mem.mp hostOps1_1_writes) op hop
  · exact (List.forall_iff_forall_mem.mp hostOps1_2_writes) op hop

theorem sfx_flat_writes : ((sfxOps : List (List (HloOp τ sig (Elt F)))).flatten).Forall fun op => op.writes ⊆ (sfxW.map (Proc.devRef (τ := τ) .tc)).toFinset :=
  List.forall_iff_forall_mem.mpr fun op hop => by
    obtain ⟨ops, hops, h⟩ := List.mem_flatten.mp hop
    exact sfx_writes ops hops op h

/-! ### @main around the region -/

/-- @main is: the host stretches before the region, the region, the host stretches after it; so running it reduces to
    running the region continued by the later stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (sfxOps.map StableHlo.seq)) :=
  Pipeline.hmain_around cfgs 0 defs₀ 𝒱₀ m main [hostOps0, hostOps0_1] [hostOps1, hostOps1_1, hostOps1_2]
    (by simp only [List.Forall]; exact ⟨hostOps0_sub, hostOps0_1_sub⟩)
    (by simp only [List.Forall]; exact ⟨hostOps0_fresh, hostOps0_1_fresh⟩) main_chain

/-- The later stretches touch only the region's three arrays and the buffers that bypass the region. -/
theorem sfx_sub : ∀ ops ∈ (sfxOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (sfxOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And they write none of `Lsym`'s array, `Z`'s array, the region's result: none of the three is in `sfxW`. -/
theorem sfx_keeps : ∀ ops ∈ (sfxOps : List (List (HloOp τ sig (Elt F)))), ∀ op ∈ ops,
    ∀ w, Proc.devRef .tc (Pipeline.arrRef spec0 w) ∉ op.writes := by
  intro ops hops op hop w hw
  obtain ⟨y, hy, he⟩ := List.mem_map.mp (List.mem_toFinset.mp (sfx_writes ops hops op hop hw))
  have hyw : y = Pipeline.arrRef spec0 w := Proc.devRef_injective _ he
  exact (by decide : ∀ w, Pipeline.arrRef spec0 w ∉ sfxW) w (hyw ▸ hy)

/-! ### The argument arrays at the region's entry and after the later stretches -/

/-- No stretch before the region writes argument 0: the region finds it as launched. -/
theorem V_main_arg0 (c : Dev nD) : V m c main_arg0 = m ((c : Thread nD τ).loc main_arg0) :=
  StableHlo.after_of_writes_sub (W := preW) _ _ pre_writes (by decide)
/-- No stretch before the region writes argument 1: the region finds it as launched. -/
theorem V_main_arg1 (c : Dev nD) : V m c main_arg1 = m ((c : Thread nD τ).loc main_arg1) :=
  StableHlo.after_of_writes_sub (W := preW) _ _ pre_writes (by decide)
/-- No stretch before the region writes argument 2: the region finds it as launched. -/
theorem V_main_arg2 (c : Dev nD) : V m c main_arg2 = m ((c : Thread nD τ).loc main_arg2) :=
  StableHlo.after_of_writes_sub (W := preW) _ _ pre_writes (by decide)
/-- No stretch before the region writes argument 3: the region finds it as launched. -/
theorem V_main_arg3 (c : Dev nD) : V m c main_arg3 = m ((c : Thread nD τ).loc main_arg3) :=
  StableHlo.after_of_writes_sub (W := preW) _ _ pre_writes (by decide)
/-- No stretch before the region writes argument 4: the region finds it as launched. -/
theorem V_main_arg4 (c : Dev nD) : V m c main_arg4 = m ((c : Thread nD τ).loc main_arg4) :=
  StableHlo.after_of_writes_sub (W := preW) _ _ pre_writes (by decide)
/-- No stretch before the region writes argument 5: the region finds it as launched. -/
theorem V_main_arg5 (c : Dev nD) : V m c main_arg5 = m ((c : Thread nD τ).loc main_arg5) :=
  StableHlo.after_of_writes_sub (W := preW) _ _ pre_writes (by decide)
/-- No stretch before the region writes argument 6: the region finds it as launched. -/
theorem V_main_arg6 (c : Dev nD) : V m c main_arg6 = m ((c : Thread nD τ).loc main_arg6) :=
  StableHlo.after_of_writes_sub (W := preW) _ _ pre_writes (by decide)
/-- No stretch before the region writes argument 7: the region finds it as launched. -/
theorem V_main_arg7 (c : Dev nD) : V m c main_arg7 = m ((c : Thread nD τ).loc main_arg7) :=
  StableHlo.after_of_writes_sub (W := preW) _ _ pre_writes (by decide)

/-- No stretch after the region writes argument 0, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) sfxOps c main_arg0 = m ((c : Thread nD τ).loc main_arg0) := by
  unfold Pipeline.afterTail₀
  rw [StableHlo.after_of_writes_sub (W := sfxW) _ _ sfx_flat_writes (by decide),
    Pipeline.withArrays_of_ne _ c (V0 m c) _ main_arg0 (by exact (by decide : ∀ w, Pipeline.arrRef spec0 w ≠ main_arg0))]
  exact V_main_arg0 m c
/-- No stretch after the region writes argument 1, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) sfxOps c main_arg1 = m ((c : Thread nD τ).loc main_arg1) := by
  unfold Pipeline.afterTail₀
  rw [StableHlo.after_of_writes_sub (W := sfxW) _ _ sfx_flat_writes (by decide),
    Pipeline.withArrays_of_ne _ c (V0 m c) _ main_arg1 (by exact (by decide : ∀ w, Pipeline.arrRef spec0 w ≠ main_arg1))]
  exact V_main_arg1 m c
/-- No stretch after the region writes argument 3, and it is none of the region's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) sfxOps c main_arg3 = m ((c : Thread nD τ).loc main_arg3) := by
  unfold Pipeline.afterTail₀
  rw [StableHlo.after_of_writes_sub (W := sfxW) _ _ sfx_flat_writes (by decide),
    Pipeline.withArrays_of_ne _ c (V0 m c) _ main_arg3 (by exact (by decide : ∀ w, Pipeline.arrRef spec0 w ≠ main_arg3))]
  exact V_main_arg3 m c
/-- No stretch after the region writes argument 4, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) sfxOps c main_arg4 = m ((c : Thread nD τ).loc main_arg4) := by
  unfold Pipeline.afterTail₀
  rw [StableHlo.after_of_writes_sub (W := sfxW) _ _ sfx_flat_writes (by decide),
    Pipeline.withArrays_of_ne _ c (V0 m c) _ main_arg4 (by exact (by decide : ∀ w, Pipeline.arrRef spec0 w ≠ main_arg4))]
  exact V_main_arg4 m c
/-- No stretch after the region writes argument 5, and it is none of the region's arrays: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) sfxOps c main_arg5 = m ((c : Thread nD τ).loc main_arg5) := by
  unfold Pipeline.afterTail₀
  rw [StableHlo.after_of_writes_sub (W := sfxW) _ _ sfx_flat_writes (by decide),
    Pipeline.withArrays_of_ne _ c (V0 m c) _ main_arg5 (by exact (by decide : ∀ w, Pipeline.arrRef spec0 w ≠ main_arg5))]
  exact V_main_arg5 m c
/-- No stretch after the region writes argument 6, and it is none of the region's arrays: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) sfxOps c main_arg6 = m ((c : Thread nD τ).loc main_arg6) := by
  unfold Pipeline.afterTail₀
  rw [StableHlo.after_of_writes_sub (W := sfxW) _ _ sfx_flat_writes (by decide),
    Pipeline.withArrays_of_ne _ c (V0 m c) _ main_arg6 (by exact (by decide : ∀ w, Pipeline.arrRef spec0 w ≠ main_arg6))]
  exact V_main_arg6 m c
/-- No stretch after the region writes argument 7, and it is none of the region's arrays: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) sfxOps c main_arg7 = m ((c : Thread nD τ).loc main_arg7) := by
  unfold Pipeline.afterTail₀
  rw [StableHlo.after_of_writes_sub (W := sfxW) _ _ sfx_flat_writes (by decide),
    Pipeline.withArrays_of_ne _ c (V0 m c) _ main_arg7 (by exact (by decide : ∀ w, Pipeline.arrRef spec0 w ≠ main_arg7))]
  exact V_main_arg7 m c

/-! ## The windows' blocks -/

/-- Window `w`'s block at point `t`, cut from its array as the region finds it: for window 0 the `1536 × 1536` block
    `(i, k)` of `Lsym`, for window 1 the `1536 × 64` block `k` of `Z`, where `t = 8 i + k`. -/
def blockIn (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of `Lsym`'s window holds block `(i, k)` at every point, whether the pipeline fetched there or
    not (it does at every point), for any proof data over `V` whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = blockIn m c 0 t) (t : Fin cfg0.N) (d) : dat.before 0 t d = blockIn m c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-- The staging buffer of `Z`'s window holds block `k` at every point, likewise. -/
theorem before_in1_of {c : Dev nD} (dat : Dat τ (Elt F) Unit ℕ (UR sig nD τ) ℕ cfg0 c) (hA : dat.A 1 = V m c (Pipeline.arrRef spec0 1))
    (hafter : ∀ t, dat.after 1 t = blockIn m c 1 t) (t : Fin cfg0.N) (d) : dat.before 1 t d = blockIn m c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

/-! ## The frame claim's post from a frame run's -/

/-- The eight argument arrays end as launched, from the frame run's post: `Lsym`'s array is window 0's, an input, which
    the pipeline leaves at its entry contents; the other seven bypass the region and no later stretch writes them. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) sfxOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (W_main_arg0 m dats c),
   ((h c).2 main_arg1 (Pipeline.mem_restRefs_of main_arg1 (by decide) (by decide))).trans (W_main_arg1 m dats c),
   ((h c).1 0).trans (((dats 0 c).arrAt_in 0 rfl _).trans ((hA c 0).trans (V_main_arg2 m c))),
   ((h c).2 main_arg3 (Pipeline.mem_restRefs_of main_arg3 (by decide) (by decide))).trans (W_main_arg3 m dats c),
   ((h c).2 main_arg4 (Pipeline.mem_restRefs_of main_arg4 (by decide) (by decide))).trans (W_main_arg4 m dats c),
   ((h c).2 main_arg5 (Pipeline.mem_restRefs_of main_arg5 (by decide) (by decide))).trans (W_main_arg5 m dats c),
   ((h c).2 main_arg6 (Pipeline.mem_restRefs_of main_arg6 (by decide) (by decide))).trans (W_main_arg6 m dats c),
   ((h c).2 main_arg7 (Pipeline.mem_restRefs_of main_arg7 (by decide) (by decide))).trans (W_main_arg7 m dats c)⟩

/-- THE FRAME from a frame run: a run of @main to the library's frame post, for any proof data over `V`, is a run to
    the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) sfxOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m dats hA r h c) h

/-! ## The body's two conditions

The body zeroes the accumulator under `k = 0` and stores it to the output block under `k = 7`, where `k` is the
second grid coordinate: at point `t = 8 i + k` these are `t % 8 = 0` and `t % 8 = 7`. -/

/-- The body's first condition, `k = 0`, as it computes it from the grid coordinates. -/
abbrev atFirst (i : grid0.Coords) : Prop := (Scalar.cmpi .ne (Scalar.extui (Scalar.cmpi .eq (BitVec.ofNat 32 (i 1).val) 0#32)) 0#32) = 1#1
/-- It holds exactly at the first point of each row block's group of eight. -/
theorem atFirst_iff : ∀ t : Fin cfg0.N, atFirst (grid0.coords t) ↔ t.val % 8 = 0 :=
  (by decide +kernel : ∀ t : Fin grid0.N, atFirst (grid0.coords t) ↔ t.val % 8 = 0)

/-- The body's second condition, `k = 7`. -/
abbrev atLast (i : grid0.Coords) : Prop := k0_cond2 i = 1#1
/-- It holds exactly at the last point of each group of eight. -/
theorem atLast_iff : ∀ t : Fin cfg0.N, atLast (grid0.coords t) ↔ t.val % 8 = 7 :=
  (by decide +kernel : ∀ t : Fin grid0.N, atLast (grid0.coords t) ↔ t.val % 8 = 7)

/-! ## Where the windows are live

The two inputs are read at every point. The output block is stored only at `k = 7`: at the other points of a group the
body leaves its staging buffer alone and the pipeline does not write it back. -/

/-- `Lsym`'s window is live at every point. -/
theorem live0 : ∀ t : Fin cfg0.N, cfg0.idle 0 (grid0.coords t) = false := by decide +kernel
/-- `Z`'s window is live at every point. -/
theorem live1 : ∀ t : Fin cfg0.N, cfg0.idle 1 (grid0.coords t) = false := by decide +kernel
/-- At `k = 0` the output window is idle, -/
theorem idleOut_first : ∀ t : Fin cfg0.N, atFirst (grid0.coords t) → ¬atLast (grid0.coords t) → cfg0.idle 2 (grid0.coords t) = true := by decide +kernel
/-- and not written back. -/
theorem noFlush_first : ∀ t : Fin cfg0.N, atFirst (grid0.coords t) → ¬atLast (grid0.coords t) → (cfg0.win 2).flush t = false := by decide +kernel
/-- At `0 < k < 7` the output window is idle, -/
theorem idleOut_mid : ∀ t : Fin cfg0.N, ¬atFirst (grid0.coords t) → ¬atLast (grid0.coords t) → cfg0.idle 2 (grid0.coords t) = true := by decide +kernel
/-- and not written back. -/
theorem noFlush_mid : ∀ t : Fin cfg0.N, ¬atFirst (grid0.coords t) → ¬atLast (grid0.coords t) → (cfg0.win 2).flush t = false := by decide +kernel
/-- At `k = 7` the output window is live: the accumulated block is stored into it. -/
theorem liveOut_last : ∀ t : Fin cfg0.N, ¬atFirst (grid0.coords t) → atLast (grid0.coords t) → cfg0.idle 2 (grid0.coords t) = false := by decide +kernel

/-! ## The memrefs the body is called on -/

/-- One staging buffer of the output window, as a view: the output block's contents are stated through it (which of the
    two buffers is chosen does not matter, they have one shape). -/
abbrev outView : View sig .tc .vmem S1536x64 .f32 := (Memref.whole cc0_stg2_0 : Memref sig .tc .vmem S1536x64 .f32).view

/-- The current staging memref of each window at point `t`, and that it is a whole buffer. -/
abbrev stIn0 (t : Fin cfg0.N) : Memref sig .tc .vmem S1536x1536 .f32 := win0_0.stage (cfg0.slots t 0)
abbrev hstIn0 (t : Fin cfg0.N) : (stIn0 t).IsWhole := hstage0_0 ((cfg0.slots t 0).cast nbuf0_0)
abbrev stIn1 (t : Fin cfg0.N) : Memref sig .tc .vmem S1536x64 .f32 := win0_1.stage (cfg0.slots t 1)
abbrev hstIn1 (t : Fin cfg0.N) : (stIn1 t).IsWhole := hstage0_1 ((cfg0.slots t 1).cast nbuf0_1)
abbrev stOut (t : Fin cfg0.N) : Memref sig .tc .vmem S1536x64 .f32 := win0_2.stage (cfg0.slots t 2)
abbrev hstOut (t : Fin cfg0.N) : (stOut t).IsWhole := hstage0_2 ((cfg0.slots t 2).cast nbuf0_2)

/-- The accumulator: a whole `1536 × 64` buffer of the kernel's own, carried from point to point. -/
abbrev accM : Memref sig .tc .vmem S1536x64 .f32 := Memref.whole cc0_scratch0
/-- The accumulator as a view: its contents are stated through it. -/
abbrev accView : View sig .tc .vmem S1536x64 .f32 := accM.view

/-- What the launch hands the region besides the windows: the accumulator, owned at some contents, and the generator
    register at some state. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Fr

end
-- ==== Proof.KI.RunA.lean ====
/- The matmul body at the FIRST point of a group of eight (contraction block k = 0, not k = 7).

   One grid point (i, k) of Hh = Lsym @ Z holds a 1536x1536 block A of Lsym (arg2), a 1536x64 block B of Z
   (arg3), the 1536x64 output block (arg4) and the carried 1536x64 accumulator (arg5). At k = 0 the body
   overwrites the whole accumulator with zeros and then with 0 + A·B, so the accumulator's contents before the
   point do not matter; the output block is neither read nor written. -/
import proofs.«147044_j22316650070954_1_alg».proof.Proof.KI.Runs

-- the boxes loaded and stored here are whole 1536x1536 and 1536x64 blocks: deciding that a coordinate lies in
-- such a box recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body's triple at k = 0 (and k ≠ 7), with the pieces it leaves as witness. Given the two input blocks
    owned whole at `x0`, `x1`, the output block owned at any `xi2`, and the accumulator owned at ANY contents,
    the body runs to a continuation that gets back the inputs and the output block exactly as they were and the
    accumulator's buffer with the list `LS0` of pieces written over it, last store first: the accumulation
    `k0_pay2 x0 x1 (zeros)` over the whole block, on top of the zero fill `k0_pay1` over the whole block. The
    output block's own list of pieces (first component) is empty: nothing is stored there at this point. -/
noncomputable def bodyRunFirst (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : atFirst i) (hc1 : ¬atLast i)
    (x0 : Vec F S1536x1536 .f32) (x1 : Vec F S1536x64 .f32) :
    Σ' (L2 : List (View.Piece (Elt F) S1536x64 .f32)), { LS0 : List (View.Piece (Elt F) S1536x64 .f32) //
      ∀ (xi2 : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__lsym_matmul_kernel i arg2 harg2 arg3 harg3 arg4 harg4 arg5 harg5) K } := by
  refine ⟨[], ?_, fun xi2 E K => ?run⟩
  case run =>
    simp only [cc0__lsym_matmul_kernel_eq_skeleton]; unfold cc0__lsym_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.RunB.lean ====
/- The matmul body at an INNER point of a group of eight (contraction block 0 < k < 7).

   Neither branch is taken: the body reads the blocks A (arg2), B (arg3) and the accumulator (arg5) as the
   point before left it, and overwrites the whole accumulator with acc + A·B. The output block (arg4) is neither
   read nor written. -/
import proofs.«147044_j22316650070954_1_alg».proof.Proof.KI.RunA

-- the boxes loaded and stored here are whole 1536x1536 and 1536x64 blocks: deciding that a coordinate lies in
-- such a box recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body's triple at 0 < k < 7, with the pieces it leaves as witness. Given the two input blocks owned whole
    at `x0`, `x1`, the output block owned at any `xi2`, and the accumulator owned at the contents `xs0` carried
    from the point before, the body runs to a continuation that gets back the inputs and the output block exactly
    as they were and the accumulator's buffer with `LS0` written over it: the one whole-block store of
    `k0_pay2 x0 x1 xs0`. The output block's own list of pieces (first component) is empty. -/
noncomputable def bodyRunMid (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : ¬atLast i)
    (x0 : Vec F S1536x1536 .f32) (x1 : Vec F S1536x64 .f32) (xs0 : Vec F S1536x64 .f32) :
    Σ' (L2 : List (View.Piece (Elt F) S1536x64 .f32)), { LS0 : List (View.Piece (Elt F) S1536x64 .f32) //
      ∀ (xi2 : Vec F S1536x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__lsym_matmul_kernel i arg2 harg2 arg3 harg3 arg4 harg4 arg5 harg5) K } := by
  refine ⟨[], ?_, fun xi2 E K => ?run⟩
  case run =>
    simp only [cc0__lsym_matmul_kernel_eq_skeleton]; unfold cc0__lsym_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.RunC.lean ====
/- The matmul body at the LAST point of a group of eight (contraction block k = 7).

   The first branch is not taken, the second is: the body overwrites the whole accumulator (arg5) with
   acc + A·B, where acc is what the point before left, then copies the whole accumulator into the output block
   (arg4), whose previous contents do not matter. -/
import proofs.«147044_j22316650070954_1_alg».proof.Proof.KI.RunB

-- the boxes loaded and stored here are whole 1536x1536 and 1536x64 blocks: deciding that a coordinate lies in
-- such a box recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The body's triple at k = 7 (and k ≠ 0), with the pieces it leaves as witness. Given the two input blocks
    owned whole at `x0`, `x1`, the output block owned at ANY contents, and the accumulator owned at the contents
    `xs0` carried from the point before, the body runs to a continuation that gets back the inputs as they were,
    the output block's buffer with `L2` written over it (one whole-block store of the final accumulator) and the
    accumulator's buffer with `LS0` written over it (the whole-block store of `k0_pay2 x0 x1 xs0`). -/
noncomputable def bodyRunLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) :
    Σ' (L2 : List (View.Piece (Elt F) S1536x64 .f32)), { LS0 : List (View.Piece (Elt F) S1536x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__lsym_matmul_kernel i arg2 harg2 arg3 harg3 arg4 harg4 arg5 harg5) K } := by
  refine ⟨?_, ?_, fun E K => ?run⟩
  case run =>
    simp only [cc0__lsym_matmul_kernel_eq_skeleton]; unfold cc0__lsym_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Frame.lean ====
import proofs.«147044_j22316650070954_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves

The body's stores are found by running it (the three runs); here their pieces are read back as contents. In every case
the accumulator's last store is of the whole `1536 × 64` buffer, so its pieces cover it; at `k = 7` the one store into
the output block is of the whole block. -/

/-- At `k = 0` the accumulator's pieces (the zero fill, then `0 + Lsym_blk · Z_blk`) cover it. -/
theorem accCoverFirst (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : atFirst i) (hc1 : ¬atLast i)
    (x0 : Vec F S1536x1536 .f32) (x1 : Vec F S1536x64 .f32) (y : S1536x64.Idx) :
    ∃ pc ∈ (bodyRunFirst c i arg2 harg2 arg3 harg3 arg4 harg4 arg5 harg5 hc0 hc1 x0 x1).2.1, y ∈ pc.1.set :=
  View.cover_of_tiledL (bodyRunFirst c i arg2 harg2 arg3 harg3 arg4 harg4 arg5 harg5 hc0 hc1 x0 x1).2.1 S1536x64.size (by sl_kernel_rfl) y

/-- The accumulator after the body at `k = 0`: `Lsym_blk · Z_blk` added to the zero fill. -/
def accFirst (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : atFirst i) (hc1 : ¬atLast i)
    (x0 : Vec F S1536x1536 .f32) (x1 : Vec F S1536x64 .f32) : Vec F S1536x64 .f32 :=
  accView.read (Elt F) (accView.writes (Elt F) accView.junk (bodyRunFirst c i arg2 harg2 arg3 harg3 arg4 harg4 arg5 harg5 hc0 hc1 x0 x1).2.1)

/-- At `k = 0` the body stores nothing into the output block: a placeholder (no pieces over arbitrary contents) that
    nothing reads, the block being neither written back there nor consulted at the next point. -/
def outIdleFirst (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : atFirst i) (hc1 : ¬atLast i)
    (x0 : Vec F S1536x1536 .f32) (x1 : Vec F S1536x64 .f32) : Vec F S1536x64 .f32 :=
  outView.read (Elt F) (outView.writes (Elt F) outView.junk (bodyRunFirst c i arg2 harg2 arg3 harg3 arg4 harg4 arg5 harg5 hc0 hc1 x0 x1).1)

/-- At `0 < k < 7` the accumulator's one piece (`acc + Lsym_blk · Z_blk`) covers it. -/
theorem accCoverMid (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : ¬atLast i)
    (x0 : Vec F S1536x1536 .f32) (x1 : Vec F S1536x64 .f32) (xs0 : Vec F S1536x64 .f32) (y : S1536x64.Idx) :
    ∃ pc ∈ (bodyRunMid c i arg2 harg2 arg3 harg3 arg4 harg4 arg5 harg5 hc0 hc1 x0 x1 xs0).2.1, y ∈ pc.1.set :=
  View.cover_of_tiledL (bodyRunMid c i arg2 harg2 arg3 harg3 arg4 harg4 arg5 harg5 hc0 hc1 x0 x1 xs0).2.1 S1536x64.size (by sl_kernel_rfl) y

/-- The accumulator after the body at `0 < k < 7`: `xs0 + Lsym_blk · Z_blk`. -/
def accMid (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : ¬atLast i)
    (x0 : Vec F S1536x1536 .f32) (x1 : Vec F S1536x64 .f32) (xs0 : Vec F S1536x64 .f32) : Vec F S1536x64 .f32 :=
  accView.read (Elt F) (accView.writes (Elt F) accView.junk (bodyRunMid c i arg2 harg2 arg3 harg3 arg4 harg4 arg5 harg5 hc0 hc1 x0 x1 xs0).2.1)

/-- At `0 < k < 7` the body stores nothing into the output block: a placeholder, as at `k = 0`. -/
def outIdleMid (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : ¬atLast i)
    (x0 : Vec F S1536x1536 .f32) (x1 : Vec F S1536x64 .f32) (xs0 : Vec F S1536x64 .f32) : Vec F S1536x64 .f32 :=
  outView.read (Elt F) (outView.writes (Elt F) outView.junk (bodyRunMid c i arg2 harg2 arg3 harg3 arg4 harg4 arg5 harg5 hc0 hc1 x0 x1 xs0).1)

/-- At `k = 7` the accumulator's one piece covers it. -/
theorem accCoverLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) (y : S1536x64.Idx) :
    ∃ pc ∈ (bodyRunLast c i arg2 harg2 arg3 harg3 arg4 harg4 arg5 harg5 hc0 hc1 x0 x1 xs0).2.1, y ∈ pc.1.set :=
  View.cover_of_tiledL (bodyRunLast c i arg2 harg2 arg3 harg3 arg4 harg4 arg5 harg5 hc0 hc1 x0 x1 xs0).2.1 S1536x64.size (by sl_kernel_rfl) y

/-- At `k = 7` the one store into the output block is of the whole block. -/
theorem outCoverLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) (y : S1536x64.Idx) :
    ∃ pc ∈ (bodyRunLast c i arg2 harg2 arg3 harg3 arg4 harg4 arg5 harg5 hc0 hc1 x0 x1 xs0).1, y ∈ pc.1.set :=
  View.cover_of_tiledL (bodyRunLast c i arg2 harg2 arg3 harg3 arg4 harg4 arg5 harg5 hc0 hc1 x0 x1 xs0).1 S1536x64.size (by sl_kernel_rfl) y

/-- The accumulator after the body at `k = 7`: `xs0 + Lsym_blk · Z_blk`, the finished row block of `Lsym · Z`. -/
def accLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) : Vec F S1536x64 .f32 :=
  accView.read (Elt F) (accView.writes (Elt F) accView.junk (bodyRunLast c i arg2 harg2 arg3 harg3 arg4 harg4 arg5 harg5 hc0 hc1 x0 x1 xs0).2.1)

/-- The output block after the body at `k = 7`: the accumulator's final contents, copied. -/
def outLast (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) : Vec F S1536x64 .f32 :=
  outView.read (Elt F) (outView.writes (Elt F) outView.junk (bodyRunLast c i arg2 harg2 arg3 harg3 arg4 harg4 arg5 harg5 hc0 hc1 x0 x1 xs0).1)

/-! ## The accumulation, point by point -/

/-- THE ACCUMULATION. What the output window's staging buffer (first component) and the accumulator (second) hold after
    the body at position `n = 8 i + k`: at `k = 0` the accumulator restarts from the zero fill; at `k > 0` it adds this
    point's `Lsym_blk · Z_blk` to what position `n - 1` left; at `k = 7` the output block receives it. No position has
    both `k = 0` and `k = 7`. -/
def pointState (c : Dev nD) : (n : ℕ) → n < cfg0.N → Vec F S1536x64 .f32 × Vec F S1536x64 .f32
  | 0, hn =>
    (outIdleFirst c (grid0.coords ⟨0, hn⟩) (stIn0 ⟨0, hn⟩) (hstIn0 ⟨0, hn⟩) (stIn1 ⟨0, hn⟩) (hstIn1 ⟨0, hn⟩) (stOut ⟨0, hn⟩) (hstOut ⟨0, hn⟩) accM (Memref.isWhole_whole _) ((atFirst_iff ⟨0, hn⟩).mpr (Nat.zero_mod _)) (fun h => (fun h => by (try dsimp only at h); omega) ((atLast_iff ⟨0, hn⟩).mp h)) (blockIn m c 0 ⟨0, hn⟩) (blockIn m c 1 ⟨0, hn⟩),
     accFirst c (grid0.coords ⟨0, hn⟩) (stIn0 ⟨0, hn⟩) (hstIn0 ⟨0, hn⟩) (stIn1 ⟨0, hn⟩) (hstIn1 ⟨0, hn⟩) (stOut ⟨0, hn⟩) (hstOut ⟨0, hn⟩) accM (Memref.isWhole_whole _) ((atFirst_iff ⟨0, hn⟩).mpr (Nat.zero_mod _)) (fun h => (fun h => by (try dsimp only at h); omega) ((atLast_iff ⟨0, hn⟩).mp h)) (blockIn m c 0 ⟨0, hn⟩) (blockIn m c 1 ⟨0, hn⟩))
  | n + 1, hn =>
    if h0 : (n + 1) % 8 = 0 then
      if h1 : (n + 1) % 8 = 7 then
        False.elim (by omega)
      else
        (outIdleFirst c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) ((atFirst_iff ⟨n + 1, hn⟩).mpr h0) (fun h => h1 ((atLast_iff ⟨n + 1, hn⟩).mp h)) (blockIn m c 0 ⟨n + 1, hn⟩) (blockIn m c 1 ⟨n + 1, hn⟩),
         accFirst c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) ((atFirst_iff ⟨n + 1, hn⟩).mpr h0) (fun h => h1 ((atLast_iff ⟨n + 1, hn⟩).mp h)) (blockIn m c 0 ⟨n + 1, hn⟩) (blockIn m c 1 ⟨n + 1, hn⟩))
    else
      if h1 : (n + 1) % 8 = 7 then
        (outLast c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) (fun h => h0 ((atFirst_iff ⟨n + 1, hn⟩).mp h)) ((atLast_iff ⟨n + 1, hn⟩).mpr h1) (blockIn m c 0 ⟨n + 1, hn⟩) (blockIn m c 1 ⟨n + 1, hn⟩) (pointState c n (Nat.lt_of_succ_lt hn)).2,
         accLast c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) (fun h => h0 ((atFirst_iff ⟨n + 1, hn⟩).mp h)) ((atLast_iff ⟨n + 1, hn⟩).mpr h1) (blockIn m c 0 ⟨n + 1, hn⟩) (blockIn m c 1 ⟨n + 1, hn⟩) (pointState c n (Nat.lt_of_succ_lt hn)).2)
      else
        (outIdleMid c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) (fun h => h0 ((atFirst_iff ⟨n + 1, hn⟩).mp h)) (fun h => h1 ((atLast_iff ⟨n + 1, hn⟩).mp h)) (blockIn m c 0 ⟨n + 1, hn⟩) (blockIn m c 1 ⟨n + 1, hn⟩) (pointState c n (Nat.lt_of_succ_lt hn)).2,
         accMid c (grid0.coords ⟨n + 1, hn⟩) (stIn0 ⟨n + 1, hn⟩) (hstIn0 ⟨n + 1, hn⟩) (stIn1 ⟨n + 1, hn⟩) (hstIn1 ⟨n + 1, hn⟩) (stOut ⟨n + 1, hn⟩) (hstOut ⟨n + 1, hn⟩) accM (Memref.isWhole_whole _) (fun h => h0 ((atFirst_iff ⟨n + 1, hn⟩).mp h)) (fun h => h1 ((atLast_iff ⟨n + 1, hn⟩).mp h)) (blockIn m c 0 ⟨n + 1, hn⟩) (blockIn m c 1 ⟨n + 1, hn⟩) (pointState c n (Nat.lt_of_succ_lt hn)).2)

/-- `pointState` at a point with `k = 0`. -/
theorem pointState_first (c : Dev nD) (t : Fin cfg0.N) (h0 : t.val % 8 = 0) (h1 : ¬t.val % 8 = 7) :
    pointState m c t.val t.isLt =
      (outIdleFirst c (grid0.coords t) (stIn0 t) (hstIn0 t) (stIn1 t) (hstIn1 t) (stOut t) (hstOut t) accM (Memref.isWhole_whole _) ((atFirst_iff t).mpr h0) (fun h => h1 ((atLast_iff t).mp h)) (blockIn m c 0 t) (blockIn m c 1 t),
       accFirst c (grid0.coords t) (stIn0 t) (hstIn0 t) (stIn1 t) (hstIn1 t) (stOut t) (hstOut t) accM (Memref.isWhole_whole _) ((atFirst_iff t).mpr h0) (fun h => h1 ((atLast_iff t).mp h)) (blockIn m c 0 t) (blockIn m c 1 t)) := by
  obtain ⟨n, hn⟩ := t
  cases n with
  | zero => exact rfl
  | succ n => exact (dif_pos h0).trans ((dif_neg h1).trans rfl)

/-- `pointState` at a point with `0 < k < 7`: over what the point before left in the accumulator. -/
theorem pointState_mid (c : Dev nD) (t : Fin cfg0.N) (h0 : ¬t.val % 8 = 0) (h1 : ¬t.val % 8 = 7) :
    pointState m c t.val t.isLt =
      (outIdleMid c (grid0.coords t) (stIn0 t) (hstIn0 t) (stIn1 t) (hstIn1 t) (stOut t) (hstOut t) accM (Memref.isWhole_whole _) (fun h => h0 ((atFirst_iff t).mp h)) (fun h => h1 ((atLast_iff t).mp h)) (blockIn m c 0 t) (blockIn m c 1 t) (pointState m c (t.val - 1) (Nat.lt_of_le_of_lt (Nat.sub_le _ _) t.isLt)).2,
       accMid c (grid0.coords t) (stIn0 t) (hstIn0 t) (stIn1 t) (hstIn1 t) (stOut t) (hstOut t) accM (Memref.isWhole_whole _) (fun h => h0 ((atFirst_iff t).mp h)) (fun h => h1 ((atLast_iff t).mp h)) (blockIn m c 0 t) (blockIn m c 1 t) (pointState m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `pointState` at a point with `k = 7`: over what the point before left in the accumulator. -/
theorem pointState_last (c : Dev nD) (t : Fin cfg0.N) (h0 : ¬t.val % 8 = 0) (h1 : t.val % 8 = 7) :
    pointState m c t.val t.isLt =
      (outLast c (grid0.coords t) (stIn0 t) (hstIn0 t) (stIn1 t) (hstIn1 t) (stOut t) (hstOut t) accM (Memref.isWhole_whole _) (fun h => h0 ((atFirst_iff t).mp h)) ((atLast_iff t).mpr h1) (blockIn m c 0 t) (blockIn m c 1 t) (pointState m c (t.val - 1) (Nat.lt_of_le_of_lt (Nat.sub_le _ _) t.isLt)).2,
       accLast c (grid0.coords t) (stIn0 t) (hstIn0 t) (stIn1 t) (hstIn1 t) (stOut t) (hstOut t) accM (Memref.isWhole_whole _) (fun h => h0 ((atFirst_iff t).mp h)) ((atLast_iff t).mpr h1) (blockIn m c 0 t) (blockIn m c 1 t) (pointState m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at `n = 0` what the launch hands over (the accumulator at anything); afterwards the
    accumulator owned at what position `n - 1` left in it, and the generator register at some state. -/
def accInv (c : Dev nD) : (n : ℕ) → n ≤ cfg0.N → sProp 𝕄
  | 0, _ => Pipeline.ΦA spec0 c
  | n + 1, hn => iprop(iprop(owns (c : Thread nD τ) accM fullShare ((pointState m c n hn).2)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) accM fullShare ((pointState m c n hn).2)) ∗ (∃ r, prngReg c r)) := rfl

theorem accInv_pos (c : Dev nD) (n : ℕ) (h : n ≤ cfg0.N) (hz : n ≠ 0) :
    accInv m c n h = iprop(iprop(owns (c : Thread nD τ) accM fullShare ((pointState m c (n - 1) (by omega)).2)) ∗ (∃ r, prngReg c r)) := by
  cases n with
  | zero => exact absurd rfl hz
  | succ n => rfl

/-! ## The pipeline's proof data -/

/-- The proof data on core `c`: the three arrays as the region finds them; after the body at point `t` the two input
    buffers still at their blocks and the output buffer at `pointState`'s first component; the invariant `accInv`;
    full shares; nothing owed. -/
def pdata (_ : Fin 1) (c : Dev nD) : Dat τ (Elt F) Unit ℕ (UR sig nD τ) ℕ cfg0 c where
  A w := V m c (Pipeline.arrRef spec0 w)
  after w t := match w with
    | ⟨0, _⟩ => blockIn m c 0 t
    | ⟨1, _⟩ => blockIn m c 1 t
    | ⟨2, _⟩ => (pointState m c t.val t.isLt).1
  Φ t := accInv m c t.val (Nat.le_of_lt_succ t.isLt)
  q _ := fullShare
  owed _ := 0

theorem pdata_A (c : Dev nD) (w : Fin cfg0.W) : (pdata m 0 c).A w = V m c (Pipeline.arrRef spec0 w) := by
  dsimp only [pdata]

theorem accInv_castSucc (c : Dev nD) (t : Fin cfg0.N) :
    (pdata m 0 c).Φ t.castSucc = accInv m c t.val (Nat.le_of_lt t.isLt) := by
  dsimp only [pdata]; simp only [Fin.coe_castSucc]

theorem pdata_after_in0 (c : Dev nD) (t : Fin cfg0.N) : (pdata m 0 c).after 0 t = blockIn m c 0 t := by dsimp only [pdata]
theorem pdata_after_in1 (c : Dev nD) (t : Fin cfg0.N) : (pdata m 0 c).after 1 t = blockIn m c 1 t := by dsimp only [pdata]
theorem pdata_after_out (c : Dev nD) (t : Fin cfg0.N) : (pdata m 0 c).after 2 t = (pointState m c t.val t.isLt).1 := by dsimp only [pdata]

/-- Each input's staging buffer holds its block when the body is called. -/
theorem before_in0 (c : Dev nD) (t : Fin cfg0.N) (d) : (pdata m 0 c).before 0 t d = blockIn m c 0 t :=
  before_in0_of m (pdata m 0 c) (pdata_A m c 0) (pdata_after_in0 m c) t d
theorem before_in1 (c : Dev nD) (t : Fin cfg0.N) (d) : (pdata m 0 c).before 1 t d = blockIn m c 1 t :=
  before_in1_of m (pdata m 0 c) (pdata_A m c 1) (pdata_after_in1 m c) t d

/-! ## The body obligation -/

/-- What the body is called with at point `t`: the invariant, the core's debts, and the three windows' current
    staging buffers, -/
def bodyPre (c : Dev nD) (t : Fin cfg0.N) : sProp 𝕄 :=
  iprop((pdata m 0 c).Φ t.castSucc ∗ (pdata m 0 c).owesAt () t.castSucc
    ∗ (∃ d, owns (c : Thread nD τ) (stIn0 t) fullShare ((pdata m 0 c).before 0 t d))
    ∗ (∃ d, owns (c : Thread nD τ) (stIn1 t) fullShare ((pdata m 0 c).before 1 t d))
    ∗ (∃ d, owns (c : Thread nD τ) (stOut t) fullShare ((pdata m 0 c).before 2 t d)))

/-- and what it returns. -/
def bodyPost (c : Dev nD) (t : Fin cfg0.N) : sProp 𝕄 :=
  iprop((pdata m 0 c).Φ t.succ ∗ (pdata m 0 c).owesAt () t.succ
    ∗ (pdata m 0 c).leavesExact 0 t
    ∗ (pdata m 0 c).leavesExact 1 t
    ∗ (pdata m 0 c).leavesExact 2 t)

set_option maxHeartbeats 4800000 in
/-- The body at any point `t = 8 i + k`. The inputs' buffers hold block `(i, k)` of `Lsym` and block `k` of `Z`. By
    cases on `k`: at `k = 0` the accumulator is taken at anything (from the launch at `t = 0`, from the previous group
    otherwise) and handed back at `accFirst`; at `0 < k < 7` it is taken at what `t - 1` left and handed back at
    `accMid`; in both the output buffer goes back untouched. At `k = 7` the accumulator is taken at what `t - 1` left,
    handed back at `accLast`, and the output buffer, taken at anything, is handed back at `outLast`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (pdata m 0 c).owesAt () t.succ = (pdata m 0 c).owesAt () t.castSucc from rfl]
  rw [show (pdata m 0 c).Φ t.succ = accInv m c (t.val + 1) t.isLt from rfl, accInv_succ]
  have hN : t.val < 64 := lt_of_lt_of_eq t.isLt (show cfg0.N = 64 from N_0)
  by_cases h0 : t.val % 8 = 0
  · by_cases h1 : t.val % 8 = 7
    · exfalso; omega
    · rw [show (pdata m 0 c).leavesExact 0 t = owns (c : Thread nD τ) (stIn0 t) fullShare ((pdata m 0 c).after 0 t) from by
        unfold Dat.leavesExact; rw [live0 t], pdata_after_in0]
      rw [show (pdata m 0 c).leavesExact 1 t = owns (c : Thread nD τ) (stIn1 t) fullShare ((pdata m 0 c).after 1 t) from by
        unfold Dat.leavesExact; rw [live1 t], pdata_after_in1]
      rw [Dat.leavesExact_idle (pdata m 0 c) 2 t (idleOut_first t ((atFirst_iff t).mpr h0) (fun h => h1 ((atLast_iff t).mp h))) (noFlush_first t ((atFirst_iff t).mpr h0) (fun h => h1 ((atLast_iff t).mp h)))]
      rw [pointState_first m c t h0 h1]
      unfold accFirst; (try dsimp only)
      by_cases hz : t.val = 0
      · rw [accInv_castSucc m c t, accInv_zero m c _ _ hz, classInv_eq]
        iintro ⟨⟨HS0, Hg⟩, Ho, ⟨%d0, H0⟩, ⟨%d1, H1⟩, ⟨%d2, H2⟩⟩
        iapply ((bodyRunFirst c (grid0.coords t) _ _ _ _ _ _ _ _ ((atFirst_iff t).mpr h0) (fun h => h1 ((atLast_iff t).mp h)) (blockIn m c 0 t) (blockIn m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (accCoverFirst _ _ _ _ _ _ _ _ _ _ _ _ _ _)
          iexact Hg
        isplitl [Ho]; · iexact Ho
        isplitl [H0]; · iexact H0
        isplitl [H1]; · iexact H1
        iexists _; iexact H2
      · rw [accInv_castSucc m c t, accInv_pos m c _ _ hz]
        iintro ⟨⟨HS0, Hg⟩, Ho, ⟨%d0, H0⟩, ⟨%d1, H1⟩, ⟨%d2, H2⟩⟩
        iapply ((bodyRunFirst c (grid0.coords t) _ _ _ _ _ _ _ _ ((atFirst_iff t).mpr h0) (fun h => h1 ((atLast_iff t).mp h)) (blockIn m c 0 t) (blockIn m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (accCoverFirst _ _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (pdata m 0 c).leavesExact 0 t = owns (c : Thread nD τ) (stIn0 t) fullShare ((pdata m 0 c).after 0 t) from by
        unfold Dat.leavesExact; rw [live0 t], pdata_after_in0]
      rw [show (pdata m 0 c).leavesExact 1 t = owns (c : Thread nD τ) (stIn1 t) fullShare ((pdata m 0 c).after 1 t) from by
        unfold Dat.leavesExact; rw [live1 t], pdata_after_in1]
      rw [show (pdata m 0 c).leavesExact 2 t = owns (c : Thread nD τ) (stOut t) fullShare ((pdata m 0 c).after 2 t) from by
        unfold Dat.leavesExact; rw [liveOut_last t (fun h => h0 ((atFirst_iff t).mp h)) ((atLast_iff t).mpr h1)], pdata_after_out]
      rw [pointState_last m c t h0 h1]
      unfold outLast accLast; (try dsimp only)
      by_cases hz : t.val = 0
      · exfalso; omega
      · rw [accInv_castSucc m c t, accInv_pos m c _ _ hz]
        iintro ⟨⟨HS0, Hg⟩, Ho, ⟨%d0, H0⟩, ⟨%d1, H1⟩, ⟨%d2, H2⟩⟩
        iapply ((bodyRunLast c (grid0.coords t) _ _ _ _ _ _ _ _ (fun h => h0 ((atFirst_iff t).mp h)) ((atLast_iff t).mpr h1) (blockIn m c 0 t) (blockIn m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (accCoverLast _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (outCoverLast _ _ _ _ _ _ _ _ _ _ _ _ _ _ _)
    · rw [show (pdata m 0 c).leavesExact 0 t = owns (c : Thread nD τ) (stIn0 t) fullShare ((pdata m 0 c).after 0 t) from by
        unfold Dat.leavesExact; rw [live0 t], pdata_after_in0]
      rw [show (pdata m 0 c).leavesExact 1 t = owns (c : Thread nD τ) (stIn1 t) fullShare ((pdata m 0 c).after 1 t) from by
        unfold Dat.leavesExact; rw [live1 t], pdata_after_in1]
      rw [Dat.leavesExact_idle (pdata m 0 c) 2 t (idleOut_mid t (fun h => h0 ((atFirst_iff t).mp h)) (fun h => h1 ((atLast_iff t).mp h))) (noFlush_mid t (fun h => h0 ((atFirst_iff t).mp h)) (fun h => h1 ((atLast_iff t).mp h)))]
      rw [pointState_mid m c t h0 h1]
      unfold accMid; (try dsimp only)
      by_cases hz : t.val = 0
      · exfalso; omega
      · rw [accInv_castSucc m c t, accInv_pos m c _ _ hz]
        iintro ⟨⟨HS0, Hg⟩, Ho, ⟨%d0, H0⟩, ⟨%d1, H1⟩, ⟨%d2, H2⟩⟩
        iapply ((bodyRunMid c (grid0.coords t) _ _ _ _ _ _ _ _ (fun h => h0 ((atFirst_iff t).mp h)) (fun h => h1 ((atLast_iff t).mp h)) (blockIn m c 0 t) (blockIn m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (accCoverMid _ _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (pdata (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (pdata m 0 c).Φ 0 := by
  rw [show (pdata m 0 c).Φ 0 = accInv m c 0 (Nat.zero_le _) from rfl, accInv_zero m c 0 _ rfl]
  try exact Idealize.SL.BI.Entails.refl _

/-- After any point the invariant gives the launch's form back: what the accumulator holds is forgotten. -/
theorem inv_out (c : Dev nD) (t : Fin (cfg0.N + 1)) (ht : t.val ≠ 0) : (pdata m 0 c).Φ t ⊢ Pipeline.ΦA spec0 c := by
  rw [show (pdata m 0 c).Φ t = accInv m c t.val (Nat.le_of_lt_succ t.isLt) from rfl, accInv_pos m c _ _ ht, classInv_eq]
  iintro ⟨HS0, Hg⟩
  isplitl [HS0]
  · iexists _; iexact HS0
  iexact Hg

/-- In particular after the last point. -/
theorem hout (c : Dev nD) : (pdata m 0 c).Φ (Fin.last cfg0.N) ⊢ Pipeline.ΦA spec0 c :=
  inv_out m c _ (by rw [Fin.val_last]; have : cfg0.N = 64 := N_0; omega)

/-! ## The run and the frame -/

set_option backward.isDefEq.respectTransparency.types false in
/-- From any memory with zero counters, every weakly fair execution of @main terminates without fault, and ends with
    the region's three arrays at what the library computes from the proof data and every other unscoped buffer as the
    later host stretches leave it. -/
theorem run_main : θ_run defs (onTc (τ := τ) (main (F := F))) (s₀ m ρ) (Pipeline.FramePost cfgs (pdata m) 0 (Pipeline.afterTail₀ cfgs (pdata m) 0 (V0 m) sfxOps)) :=
  Pipeline.θ_run_frame_around_track cfgs (pdata m) (0 : Fin 1) launch0 defs₀ Variants.none m ρ main
    (hbody := fun c => (body_obligation m c).loose) (hshare := fun c => (pdata m 0 c).share_full fun _ => rfl)
    (howed := fun _ _ => rfl) (V₀ := V0 m) (opss := sfxOps) (hsub := sfx_sub) (hfresh := sfx_fresh) (hkeep := sfx_keeps)
    (hmain := hmain m Variants.none) (hA := pdata_A m) (hin := hin m) (hout := hout m)

/-- THE FRAME: @main runs, and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (pdata m) (pdata_A m) (run_main m ρ)

end Cert.KernelIdeal.Fr

end
-- ==== Proof.Tail.lean ====
import proofs.«147044_j22316650070954_1_alg».proof.Proof.KI.Runs
import Idealize.ShloMosaic.Lib.Pipeline.FrameSuffix
import Idealize.ShloMosaic.Lib.StableHlo.Run

/-!
# The lines around the matrix product

The program is `Z = relu (x @ W_highᵀ)` (five lines before the region), the product `Lsym @ Z` (the region), and
sixty-six lines after it that compute `aL * gcn_conv (x, edge_index, W_conv, b_conv) + aH * (Lsym @ Z)`. The lines
after the region read the product only through its array `main_v3`; everything else they read is an argument
array that nothing writes. So the final result is ONE function, `hostTail`, of those arguments and of the product:
the reference program prints the very same lines around a one-line product, and the two results are compared by
comparing the products alone.
-/

set_option maxRecDepth 16384

noncomputable section

namespace Cert.KernelIdeal.Br

open Cert.KernelIdeal Cert.KernelIdeal.Gen Cert.KernelIdeal.Fr
open Idealize.ShloMosaic Idealize.ShloMosaic.TcCoe Idealize.ShloMosaic.StableHlo
open Idealize.SL Idealize.SL.Sem
open Idealize.ShloMosaic.Pipeline (Dat Cfg Window)

variable {F : FTy → Type} [FloatOps F]

/-- The lines after the matrix product, as one function of the arguments they read and of the product `h`:
    `aL * (gcn_conv x edge_index W_conv + b_conv) + aH * h`, the graph convolution being the symmetric
    normalisation of the edge list with self loops (degrees by scatter-add, `deg^(-1/2)` gathered at both
    ends of every edge), the gather of the projected rows, their scaling and the scatter-add back. -/
def hostTail (a0 : FVec F S12288x64 .f32) (a1 : IVec S2x196608 32) (a4 : FVec F S64x64 .f32) (a5 : FVec F S64 .f32)
    (a6 a7 : FVec F S_ .f32) (h : FVec F S12288x64 .f32) : FVec F S12288x64 .f32 :=
  addf (mulf (broadcastInDim S12288x64 ![] bcast_S_S12288x64 a6) (addf (Host.scatterAdd scatter_S12288x64_S208896x1_S208896x64_1_0_0_1 (broadcastInDim S12288x64 ![] bcast_S_S12288x64 (constant S_ .f32 0x00000000#32)) (broadcastInDim S208896x1 ![0] bcast_S208896_S208896x1_0 (concatenate S208896 0 [⟨S196608, (shapeCast _ (extractStridedSlice S1x196608 ![1, 0] a1 slices_S2x196608_S1x196608_1_0) shapeCasts_S1x196608_S196608)⟩, ⟨S12288, (iotaInDim S12288 32 0)⟩] concatenates_S196608_S12288_S208896_d0)) (mulf (Host.gather gather_S12288x64_S208896x1_S208896x64_1_0_n_n_0_1_164 (Host.dotGeneral dot_S12288x64_S64x64_S12288x64_1_0_0_1_n_n none a0 (transpose S64x64 [1, 0] a4 transposes_S64x64_S64x64_1_0)) (broadcastInDim S208896x1 ![0] bcast_S208896_S208896x1_0 (select (cmpi .slt (concatenate S208896 0 [⟨S196608, (shapeCast _ (extractStridedSlice S1x196608 ![0, 0] a1 slices_S2x196608_S1x196608_0_0) shapeCasts_S1x196608_S196608)⟩, ⟨S12288, (iotaInDim S12288 32 0)⟩] concatenates_S196608_S12288_S208896_d0) (broadcastInDim S208896 ![] bcast_S_S208896 (constantI S_ 32 0#32))) (addi (concatenate S208896 0 [⟨S196608, (shapeCast _ (extractStridedSlice S1x196608 ![0, 0] a1 slices_S2x196608_S1x196608_0_0) shapeCasts_S1x196608_S196608)⟩, ⟨S12288, (iotaInDim S12288 32 0)⟩] concatenates_S196608_S12288_S208896_d0) (broadcastInDim S208896 ![] bcast_S_S208896 (constantI S_ 32 12288#32))) (concatenate S208896 0 [⟨S196608, (shapeCast _ (extractStridedSlice S1x196608 ![0, 0] a1 slices_S2x196608_S1x196608_0_0) shapeCasts_S1x196608_S196608)⟩, ⟨S12288, (iotaInDim S12288 32 0)⟩] concatenates_S196608_S12288_S208896_d0)))) (broadcastInDim S208896x64 ![0, 1] bcast_S208896x1_S208896x64_0_1 (broadcastInDim S208896x1 ![0] bcast_S208896_S208896x1_0 (mulf (Host.gather gather_S12288_S208896x1_S208896_n_0_n_n_0_1_1 (select (cmpf (F := F) .ogt (Host.scatterAdd scatter_S12288_S208896x1_S208896_n_0_0_1 (broadcastInDim S12288 ![] bcast_S_S12288 (constant S_ .f32 0x00000000#32)) (broadcastInDim S208896x1 ![0] bcast_S208896_S208896x1_0 (concatenate S208896 0 [⟨S196608, (shapeCast _ (extractStridedSlice S1x196608 ![1, 0] a1 slices_S2x196608_S1x196608_1_0) shapeCasts_S1x196608_S196608)⟩, ⟨S12288, (iotaInDim S12288 32 0)⟩] concatenates_S196608_S12288_S208896_d0)) (broadcastInDim S208896 ![] bcast_S_S208896 (constant S_ .f32 0x3F800000#32))) (broadcastInDim S12288 ![] bcast_S_S12288 (constant S_ .f32 0x00000000#32))) (Host.rsqrt (Host.scatterAdd scatter_S12288_S208896x1_S208896_n_0_0_1 (broadcastInDim S12288 ![] bcast_S_S12288 (constant S_ .f32 0x00000000#32)) (broadcastInDim S208896x1 ![0] bcast_S208896_S208896x1_0 (concatenate S208896 0 [⟨S196608, (shapeCast _ (extractStridedSlice S1x196608 ![1, 0] a1 slices_S2x196608_S1x196608_1_0) shapeCasts_S1x196608_S196608)⟩, ⟨S12288, (iotaInDim S12288 32 0)⟩] concatenates_S196608_S12288_S208896_d0)) (broadcastInDim S208896 ![] bcast_S_S208896 (constant S_ .f32 0x3F800000#32)))) (broadcastInDim S12288 ![] bcast_S_S12288 (id (constant S_ .f32 0x00000000#32)))) (broadcastInDim S208896x1 ![0] bcast_S208896_S208896x1_0 (select (cmpi .slt (concatenate S208896 0 [⟨S196608, (shapeCast _ (extractStridedSlice S1x196608 ![0, 0] a1 slices_S2x196608_S1x196608_0_0) shapeCasts_S1x196608_S196608)⟩, ⟨S12288, (iotaInDim S12288 32 0)⟩] concatenates_S196608_S12288_S208896_d0) (broadcastInDim S208896 ![] bcast_S_S208896 (constantI S_ 32 0#32))) (addi (concatenate S208896 0 [⟨S196608, (shapeCast _ (extractStridedSlice S1x196608 ![0, 0] a1 slices_S2x196608_S1x196608_0_0) shapeCasts_S1x196608_S196608)⟩, ⟨S12288, (iotaInDim S12288 32 0)⟩] concatenates_S196608_S12288_S208896_d0) (broadcastInDim S208896 ![] bcast_S_S208896 (constantI S_ 32 12288#32))) (concatenate S208896 0 [⟨S196608, (shapeCast _ (extractStridedSlice S1x196608 ![0, 0] a1 slices_S2x196608_S1x196608_0_0) shapeCasts_S1x196608_S196608)⟩, ⟨S12288, (iotaInDim S12288 32 0)⟩] concatenates_S196608_S12288_S208896_d0)))) (Host.gather gather_S12288_S208896x1_S208896_n_0_n_n_0_1_1 (select (cmpf (F := F) .ogt (Host.scatterAdd scatter_S12288_S208896x1_S208896_n_0_0_1 (broadcastInDim S12288 ![] bcast_S_S12288 (constant S_ .f32 0x00000000#32)) (broadcastInDim S208896x1 ![0] bcast_S208896_S208896x1_0 (concatenate S208896 0 [⟨S196608, (shapeCast _ (extractStridedSlice S1x196608 ![1, 0] a1 slices_S2x196608_S1x196608_1_0) shapeCasts_S1x196608_S196608)⟩, ⟨S12288, (iotaInDim S12288 32 0)⟩] concatenates_S196608_S12288_S208896_d0)) (broadcastInDim S208896 ![] bcast_S_S208896 (constant S_ .f32 0x3F800000#32))) (broadcastInDim S12288 ![] bcast_S_S12288 (constant S_ .f32 0x00000000#32))) (Host.rsqrt (Host.scatterAdd scatter_S12288_S208896x1_S208896_n_0_0_1 (broadcastInDim S12288 ![] bcast_S_S12288 (constant S_ .f32 0x00000000#32)) (broadcastInDim S208896x1 ![0] bcast_S208896_S208896x1_0 (concatenate S208896 0 [⟨S196608, (shapeCast _ (extractStridedSlice S1x196608 ![1, 0] a1 slices_S2x196608_S1x196608_1_0) shapeCasts_S1x196608_S196608)⟩, ⟨S12288, (iotaInDim S12288 32 0)⟩] concatenates_S196608_S12288_S208896_d0)) (broadcastInDim S208896 ![] bcast_S_S208896 (constant S_ .f32 0x3F800000#32)))) (broadcastInDim S12288 ![] bcast_S_S12288 (id (constant S_ .f32 0x00000000#32)))) (broadcastInDim S208896x1 ![0] bcast_S208896_S208896x1_0 (select (cmpi .slt (concatenate S208896 0 [⟨S196608, (shapeCast _ (extractStridedSlice S1x196608 ![1, 0] a1 slices_S2x196608_S1x196608_1_0) shapeCasts_S1x196608_S196608)⟩, ⟨S12288, (iotaInDim S12288 32 0)⟩] concatenates_S196608_S12288_S208896_d0) (broadcastInDim S208896 ![] bcast_S_S208896 (constantI S_ 32 0#32))) (addi (concatenate S208896 0 [⟨S196608, (shapeCast _ (extractStridedSlice S1x196608 ![1, 0] a1 slices_S2x196608_S1x196608_1_0) shapeCasts_S1x196608_S196608)⟩, ⟨S12288, (iotaInDim S12288 32 0)⟩] concatenates_S196608_S12288_S208896_d0) (broadcastInDim S208896 ![] bcast_S_S208896 (constantI S_ 32 12288#32))) (concatenate S208896 0 [⟨S196608, (shapeCast _ (extractStridedSlice S1x196608 ![1, 0] a1 slices_S2x196608_S1x196608_1_0) shapeCasts_S1x196608_S196608)⟩, ⟨S12288, (iotaInDim S12288 32 0)⟩] concatenates_S196608_S12288_S208896_d0))))))))) (broadcastInDim S12288x64 ![0, 1] bcast_S1x64_S12288x64_0_1 (broadcastInDim S1x64 ![1] bcast_S64_S1x64_1 a5)))) (mulf (broadcastInDim S12288x64 ![] bcast_S_S12288x64 a7) h)

variable (m : (ℓ : Loc nD τ sig) → Buf (Elt F) ℓ)

/-- What the region finds in `main_v2`: `relu (x @ W_highᵀ)`, the five lines before the region read back. -/
theorem V_main_v2 (c : Dev nD) :
    V m c main_v2 = maximumf (Host.dotGeneral dot_S12288x64_S64x64_S12288x64_1_0_0_1_n_n none (m ((c : Thread nD τ).loc main_arg0)) (transpose S64x64 [1, 0] (m ((c : Thread nD τ).loc main_arg3)) transposes_S64x64_S64x64_1_0)) (broadcastInDim S12288x64 ![] bcast_S_S12288x64 (constant (F := F) S_ .f32 0x00000000#32)) := by
  dsimp only [V, V0]
  simp only [hostOps0, hostOps0_1, List.flatten_cons, List.flatten_nil, List.append_nil, List.cons_append, List.nil_append]
  after_results
  rfl

/-- The lines after the region, run from ANY contents `W` of the core's buffers, leave in `main_v56` the tail
    function of the arguments those lines read and of `main_v3` (the product's array) as `W` has them. -/
theorem tail_of (W : Valuation τ sig (Elt F)) :
    StableHlo.after (List.flatten (sfxOps (F := F))) W (Proc.devRef .tc main_v56)
      = hostTail (W (Proc.devRef .tc main_arg0)) (W (Proc.devRef .tc main_arg1)) (W (Proc.devRef .tc main_arg4))
          (W (Proc.devRef .tc main_arg5)) (W (Proc.devRef .tc main_arg6)) (W (Proc.devRef .tc main_arg7)) (W (Proc.devRef .tc main_v3)) := by
  simp only [sfxOps, hostOps1, hostOps1_1, hostOps1_2, List.flatten_cons, List.flatten_nil, List.append_nil, List.cons_append, List.nil_append]
  after_results_simp <;> (try simp only [TRef.ofBuf, TRef.toBuf, cast_eq]) <;> rfl

/-- What the whole program leaves in `main_v56`: the tail function of the launch contents of the arguments
    the lines after the region read (none of them is written by any line or by the region) and of what the
    region leaves in the product's array. -/
theorem afterTail_v56 (dats : (p : Fin 1) → (c : Dev nD) → Dat τ (Elt F) Unit ℕ (UR sig nD τ) ℕ (cfgs p) c) (c : Dev nD) :
    Pipeline.afterTail₀ cfgs dats 0 (V0 m) sfxOps c main_v56
      = hostTail (m ((c : Thread nD τ).loc main_arg0)) (m ((c : Thread nD τ).loc main_arg1)) (m ((c : Thread nD τ).loc main_arg4))
          (m ((c : Thread nD τ).loc main_arg5)) (m ((c : Thread nD τ).loc main_arg6)) (m ((c : Thread nD τ).loc main_arg7))
          ((dats 0 c).arrAt 2 cfg0.N) := by
  have e0 := (Pipeline.withArrays_of_ne spec0 c (V0 m c) (fun w => (dats 0 c).arrAt w cfg0.N) main_arg0 (by decide)).trans (V_main_arg0 m c)
  have e1 := (Pipeline.withArrays_of_ne spec0 c (V0 m c) (fun w => (dats 0 c).arrAt w cfg0.N) main_arg1 (by decide)).trans (V_main_arg1 m c)
  have e4 := (Pipeline.withArrays_of_ne spec0 c (V0 m c) (fun w => (dats 0 c).arrAt w cfg0.N) main_arg4 (by decide)).trans (V_main_arg4 m c)
  have e5 := (Pipeline.withArrays_of_ne spec0 c (V0 m c) (fun w => (dats 0 c).arrAt w cfg0.N) main_arg5 (by decide)).trans (V_main_arg5 m c)
  have e6 := (Pipeline.withArrays_of_ne spec0 c (V0 m c) (fun w => (dats 0 c).arrAt w cfg0.N) main_arg6 (by decide)).trans (V_main_arg6 m c)
  have e7 := (Pipeline.withArrays_of_ne spec0 c (V0 m c) (fun w => (dats 0 c).arrAt w cfg0.N) main_arg7 (by decide)).trans (V_main_arg7 m c)
  have e3 : Pipeline.withArrays spec0 c (V0 m c) (fun w => (dats 0 c).arrAt w cfg0.N) (Proc.devRef .tc main_v3) = (dats 0 c).arrAt 2 cfg0.N :=
    Pipeline.withArrays_arr spec0 launch0.win.arr_inj c (V0 m c) (fun w => (dats 0 c).arrAt w cfg0.N) 2
  have key := tail_of (F := F) (Pipeline.withArrays spec0 c (V0 m c) fun w => (dats 0 c).arrAt w cfg0.N)
  rw [e0, e1, e4, e5, e6, e7, e3] at key
  exact key

end Cert.KernelIdeal.Br

end
-- ==== Proof.RefTail.lean ====
import proofs.«147044_j22316650070954_1_alg».proof.Proof.RefRun
import proofs.«147044_j22316650070954_1_alg».proof.Proof.Tail
import Idealize.ShloMosaic.PureOps.Ideal

/-!
# The reference's result through the same tail function

The reference program prints, around its one-line product `Lsym @ relu (x @ W_highᵀ)`, the same lines as the
kernel program prints around its region. Its composed result is therefore `hostTail` of its own arguments and of
that product: the two sides are the same term up to the two programs' names for equal shapes and dimension records.
-/

set_option maxRecDepth 16384

noncomputable section

namespace Cert.KernelIdeal.Br

open Cert.KernelIdeal Cert.KernelIdeal.Gen
open Idealize.ShloMosaic Idealize.ShloMosaic.TcCoe Idealize.ShloMosaic.StableHlo
open Idealize.SL Idealize.SL.Sem

variable {F : FTy → Type} [FloatOps F]

/-- The reference's result is the same tail function, of the reference's own arguments and of its one-line
    matrix product `Lsym @ relu (x @ W_highᵀ)`: the two programs print the same lines around the product. -/
theorem ref_result_gen (m' : (ℓ : Loc Cert.ReferenceIdeal.nD Cert.ReferenceIdeal.τ Cert.ReferenceIdeal.sig) → Buf (Elt F) ℓ) (c : Dev Cert.ReferenceIdeal.nD) :
    Cert.ReferenceIdeal.ValueP.res_main_v56 (F := F) m' c
      = hostTail (F := F) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
          (Host.dotGeneral Cert.ReferenceIdeal.dot_S12288x12288_S12288x64_S12288x64_1_0_0_1_n_n none (m' ((c.tc : Thread Cert.ReferenceIdeal.nD Cert.ReferenceIdeal.τ).loc Cert.ReferenceIdeal.main_arg2))
            (maximumf (Host.dotGeneral Cert.ReferenceIdeal.dot_S12288x64_S64x64_S12288x64_1_0_0_1_n_n none (m' ((c.tc : Thread Cert.ReferenceIdeal.nD Cert.ReferenceIdeal.τ).loc Cert.ReferenceIdeal.main_arg0))
              (transpose Cert.ReferenceIdeal.S64x64 [1, 0] (m' ((c.tc : Thread Cert.ReferenceIdeal.nD Cert.ReferenceIdeal.τ).loc Cert.ReferenceIdeal.main_arg3)) Cert.ReferenceIdeal.Facts₀.transposes_S64x64_S64x64_1_0))
              (broadcastInDim Cert.ReferenceIdeal.S12288x64 ![] Cert.ReferenceIdeal.Facts₀.bcast_S_S12288x64 (constant (F := F) Cert.ReferenceIdeal.S_ .f32 0x00000000#32)))) := by
  unfold Cert.ReferenceIdeal.ValueP.res_main_v56 hostTail
  rfl

/-- The same at the ideal floats, where the float formats are written out (they are not determined by the
    ideal value type alone). -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v56 (F := Ideal) m' c
      = hostTail (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
          (Host.dotGeneral (F := Ideal) (φ₁ := .f32) (φ₂ := .f32) Cert.ReferenceIdeal.dot_S12288x12288_S12288x64_S12288x64_1_0_0_1_n_n none (m' ((c.tc : Thread Cert.ReferenceIdeal.nD Cert.ReferenceIdeal.τ).loc Cert.ReferenceIdeal.main_arg2))
            (maximumf (F := Ideal) (φ := .f32) (Host.dotGeneral (F := Ideal) (φ₁ := .f32) (φ₂ := .f32) Cert.ReferenceIdeal.dot_S12288x64_S64x64_S12288x64_1_0_0_1_n_n none (m' ((c.tc : Thread Cert.ReferenceIdeal.nD Cert.ReferenceIdeal.τ).loc Cert.ReferenceIdeal.main_arg0))
              (transpose (α := Ideal .f32) Cert.ReferenceIdeal.S64x64 [1, 0] (m' ((c.tc : Thread Cert.ReferenceIdeal.nD Cert.ReferenceIdeal.τ).loc Cert.ReferenceIdeal.main_arg3)) Cert.ReferenceIdeal.Facts₀.transposes_S64x64_S64x64_1_0))
              (broadcastInDim Cert.ReferenceIdeal.S12288x64 ![] Cert.ReferenceIdeal.Facts₀.bcast_S_S12288x64 (constant (F := Ideal) Cert.ReferenceIdeal.S_ .f32 0x00000000#32)))) :=
  ref_result_gen (F := Ideal) m' c

end Cert.KernelIdeal.Br

end
-- ==== Proof.Val.Payload.lean ====
/-
  The kernel body's two stored values, read entry by entry over the extended reals.
  The reset stores the zero block. The update stores, at entry (p, q) of the 1536 x 64 accumulator block,
  the accumulator's entry plus the product of the operator block's row p with the feature block's column q:
  acc[p, q] + Σ_j a[p, j] * b[j, q], j over the block's 1536 columns. The two narrowings to bf16 are the identity on
  extended reals, the shape casts are to the same shape, and the matrix unit starts from its zero rows.
-/
import proofs.«147044_j22316650070954_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Br

open Cert.KernelIdeal Cert.KernelIdeal.Gen

/-! ### The block product's operand indices: row p and column j of the left block, row j and column q of the right -/

theorem lhs_blk_0 (i : S1536x64.Idx) (k : dot_S1536x1536_S1536x64_S1536x64_1_0_0_1_n_n.contr.Idx) :
    (dot_S1536x1536_S1536x64_S1536x64_1_0_0_1_n_n.lhsIdx i k 0).val = (i 0).val := by
  unfold DotDims.lhsIdx
  rw [dif_neg (show ¬(0 : Fin S1536x1536.rank) ∈ dot_S1536x1536_S1536x64_S1536x64_1_0_0_1_n_n.lhsBatch by decide), dif_pos (show (0 : Fin S1536x1536.rank) ∈ dot_S1536x1536_S1536x64_S1536x64_1_0_0_1_n_n.lhsNonContracting by decide)]
  rfl
theorem lhs_blk_1 (i : S1536x64.Idx) (k : dot_S1536x1536_S1536x64_S1536x64_1_0_0_1_n_n.contr.Idx) :
    (dot_S1536x1536_S1536x64_S1536x64_1_0_0_1_n_n.lhsIdx i k 1).val = (k ⟨0, by decide⟩).val :=
  dot_S1536x1536_S1536x64_S1536x64_1_0_0_1_n_n.lhsIdx_val_of_single rfl i k
theorem rhs_blk_0 (i : S1536x64.Idx) (k : dot_S1536x1536_S1536x64_S1536x64_1_0_0_1_n_n.contr.Idx) :
    (dot_S1536x1536_S1536x64_S1536x64_1_0_0_1_n_n.rhsIdx i k 0).val = (k ⟨0, by decide⟩).val :=
  dot_S1536x1536_S1536x64_S1536x64_1_0_0_1_n_n.rhsIdx_val_of_single rfl i k
theorem rhs_blk_1 (i : S1536x64.Idx) (k : dot_S1536x1536_S1536x64_S1536x64_1_0_0_1_n_n.contr.Idx) :
    (dot_S1536x1536_S1536x64_S1536x64_1_0_0_1_n_n.rhsIdx i k 1).val = (i 1).val := by
  unfold DotDims.rhsIdx
  rw [dif_neg (show ¬(1 : Fin S1536x64.rank) ∈ dot_S1536x1536_S1536x64_S1536x64_1_0_0_1_n_n.rhsBatch by decide), dif_pos (show (1 : Fin S1536x64.rank) ∈ dot_S1536x1536_S1536x64_S1536x64_1_0_0_1_n_n.rhsNonContracting by decide)]
  rfl

/-- The matrix unit's product of two blocks into its zero rows, at entry (p, q): the row-by-column sum. -/
theorem blockDot_apply {φ₁ φ₂ : FTy} (a : FVec Ideal S1536x1536 φ₁) (b : FVec Ideal S1536x64 φ₂) (p : Fin 1536) (q : Fin 64) :
    matmul (F := Ideal) dot_S1536x1536_S1536x64_S1536x64_1_0_0_1_n_n none a b (constant (F := Ideal) S1536x64 .f32 0x00000000#32) (ix2 p q)
      = ∑ j : Fin 1536, a (ix2 p j) * b (ix2 j q) := by
  show FloatOps.matmul dot_S1536x1536_S1536x64_S1536x64_1_0_0_1_n_n none a b (constant (F := Ideal) S1536x64 .f32 0x00000000#32) (ix2 p q) = _
  rw [Ideal.matmul_constant_zero_apply, ← Equiv.sum_comp (contrEquiv1 dot_S1536x1536_S1536x64_S1536x64_1_0_0_1_n_n 1536 rfl rfl).symm]
  refine Finset.sum_congr rfl fun k _ => ?_
  have hk := contrEquiv1_symm_val dot_S1536x1536_S1536x64_S1536x64_1_0_0_1_n_n 1536 rfl rfl k
  have el : dot_S1536x1536_S1536x64_S1536x64_1_0_0_1_n_n.lhsIdx (ix2 p q) ((contrEquiv1 dot_S1536x1536_S1536x64_S1536x64_1_0_0_1_n_n 1536 rfl rfl).symm k) = ix2 p k := funext fun a => Fin.ext (by
    match a with
    | ⟨0, _⟩ => exact lhs_blk_0 _ _
    | ⟨1, _⟩ => exact (lhs_blk_1 _ _).trans hk)
  have er : dot_S1536x1536_S1536x64_S1536x64_1_0_0_1_n_n.rhsIdx (ix2 p q) ((contrEquiv1 dot_S1536x1536_S1536x64_S1536x64_1_0_0_1_n_n 1536 rfl rfl).symm k) = ix2 k q := funext fun a => Fin.ext (by
    match a with
    | ⟨0, _⟩ => exact (rhs_blk_0 _ _).trans hk
    | ⟨1, _⟩ => exact rhs_blk_1 _ _)
  rw [el, er]

/-! ### The two stored values -/

/-- The reset's value is zero at every entry. -/
theorem pay1_apply (j : S1536x64.Idx) : k0_pay1 (F := Ideal) j = 0 := by
  unfold k0_pay1
  rw [shapeCast_self]
  exact Ideal.ofBits_zero_f32

/-- The update's value at entry (p, q): the accumulator's entry plus the blocks' row-by-column sum. -/
theorem pay2_apply (v3 : Vec Ideal S1536x1536 .f32) (v5 : Vec Ideal S1536x64 .f32) (v8 : Vec Ideal S1536x64 .f32)
    (p : Fin 1536) (q : Fin 64) :
    k0_pay2 (F := Ideal) v3 v5 v8 (ix2 p q) = v8 (ix2 p q) + ∑ j : Fin 1536, v3 (ix2 p j) * v5 (ix2 j q) := by
  unfold k0_pay2
  simp only [shapeCast_self]
  refine (addf_apply _ _ _).trans ?_
  exact congrArg (v8 (ix2 p q) + ·) (blockDot_apply _ _ p q)

end Cert.KernelIdeal.Br

end
-- ==== Proof.Val.Blocks.lean ====
/-
  Where the windows' blocks sit in their arrays. Point t of the 8 x 8 grid is (row block t / 8, contraction block
  t % 8). The operator's block there is rows 1536 * (t / 8) + p and columns 1536 * (t % 8) + j; the features' block is
  rows 1536 * (t % 8) + j (all 64 columns); the result's block is rows 1536 * (t / 8) + p (all 64 columns).
-/
import proofs.«147044_j22316650070954_1_alg».proof.Proof.Gen.KernelIdeal.Points
import proofs.«147044_j22316650070954_1_alg».proof.Proof.Gen.KernelIdeal.Launch
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Br

open Cert.KernelIdeal Cert.KernelIdeal.Gen

variable {F : FTy → Type} [FloatOps F]

/-- The three index maps over the grid: (i, k) ↦ (i, k), (k, 0), (i, 0) at t = 8 * i + k. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

theorem N_lt (t : Fin cfg0.N) : t.val < 64 := lt_of_lt_of_eq t.isLt N_0

/-- The operator's block at point t, entry (p, j). -/
theorem read_blk0 (A : (⟨S12288x12288, .f32⟩ : BufTy).Contents (Elt F)) (t : Fin cfg0.N) (p j : Fin 1536) :
    ((cfg0.win 0).blk t).view.read (Elt F) A (ix2 p j)
      = A (ix2 (n0 := 12288) (n1 := 12288) ⟨1536 * (t.val / 8) + p.val, by have := N_lt t; have := p.isLt; omega⟩
              ⟨1536 * (t.val % 8) + j.val, by have := j.isLt; omega⟩) := by
  obtain ⟨e0, e1, -⟩ := idx_facts t
  rw [View.read_apply]
  show A _ = A _
  congr 1
  funext a
  apply Fin.ext
  match a with
  | ⟨0, _⟩ => show win0_0.index t (0 : Fin 2) * 1536 + 1 * p.val = 1536 * (t.val / 8) + p.val; rw [e0]; omega
  | ⟨1, _⟩ => show win0_0.index t (1 : Fin 2) * 1536 + 1 * j.val = 1536 * (t.val % 8) + j.val; rw [e1]; omega

/-- The features' block at point t, entry (j, q). -/
theorem read_blk1 (A : (⟨S12288x64, .f32⟩ : BufTy).Contents (Elt F)) (t : Fin cfg0.N) (j : Fin 1536) (q : Fin 64) :
    ((cfg0.win 1).blk t).view.read (Elt F) A (ix2 j q)
      = A (ix2 (n0 := 12288) (n1 := 64) ⟨1536 * (t.val % 8) + j.val, by have := j.isLt; omega⟩ q) := by
  obtain ⟨-, -, e0, e1, -⟩ := idx_facts t
  rw [View.read_apply]
  show A _ = A _
  congr 1
  funext a
  apply Fin.ext
  match a with
  | ⟨0, _⟩ => show win0_1.index t (0 : Fin 2) * 1536 + 1 * j.val = 1536 * (t.val % 8) + j.val; rw [e0]; omega
  | ⟨1, _⟩ => show win0_1.index t (1 : Fin 2) * 64 + 1 * q.val = q.val; rw [e1]; omega

/-- The result's block at point t, entry (p, q). -/
theorem read_blk2 (A : (⟨S12288x64, .f32⟩ : BufTy).Contents (Elt F)) (t : Fin cfg0.N) (p : Fin 1536) (q : Fin 64) :
    ((cfg0.win 2).blk t).view.read (Elt F) A (ix2 p q)
      = A (ix2 (n0 := 12288) (n1 := 64) ⟨1536 * (t.val / 8) + p.val, by have := N_lt t; have := p.isLt; omega⟩ q) := by
  obtain ⟨-, -, -, -, e0, e1⟩ := idx_facts t
  rw [View.read_apply]
  show A _ = A _
  congr 1
  funext a
  apply Fin.ext
  match a with
  | ⟨0, _⟩ => show win0_2.index t (0 : Fin 2) * 1536 + 1 * p.val = 1536 * (t.val / 8) + p.val; rw [e0]; omega
  | ⟨1, _⟩ => show win0_2.index t (1 : Fin 2) * 64 + 1 * q.val = q.val; rw [e1]; omega

/-- An entry of the result array lies in point t's block iff its row lies in row block t / 8. -/
theorem mem_blk2 (t : Fin cfg0.N) (i : S12288x64.Idx) :
    i ∈ ((cfg0.win 2).blk t).view.set ↔ ∀ a : Fin 2, win0_2.index t a * S1536x64.size a ≤ (i a).val ∧ (i a).val < win0_2.index t a * S1536x64.size a + S1536x64.size a := by
  show i ∈ ((View.whole main_v3).slice (win0_2.rect t)).set ↔ _
  rw [View.set_slice_whole, Rect.mem_set_unit]
  exact Iff.rfl

/-- Every entry of the result array lies in the block of a point that writes back: the last point 8 * (r / 1536) + 7
    of its row block. -/
theorem cover2 (i : S12288x64.Idx) :
    ∃ t : Fin cfg0.N, (cfg0.win 2).flush t = true ∧ i ∈ ((cfg0.win 2).blk t).view.set := by
  have hi0 : (i 0).val < 12288 := (i 0).isLt
  have hi1 : (i 1).val < 64 := (i 1).isLt
  have hN : cfg0.N = 64 := N_0
  let t : Fin cfg0.N := ⟨8 * ((i 0).val / 1536) + 7, by rw [hN]; omega⟩
  have ht : t.val = 8 * ((i 0).val / 1536) + 7 := rfl
  obtain ⟨-, -, -, -, e0, e1⟩ := idx_facts t
  refine ⟨t, (flush0_2 t).mpr (by rw [ht]; omega), ?_⟩
  rw [mem_blk2]
  intro a
  match a with
  | ⟨0, _⟩ => show win0_2.index t (0 : Fin 2) * 1536 ≤ (i 0).val ∧ (i 0).val < win0_2.index t (0 : Fin 2) * 1536 + 1536; rw [e0, ht]; omega
  | ⟨1, _⟩ => show win0_2.index t (1 : Fin 2) * 64 ≤ (i 1).val ∧ (i 1).val < win0_2.index t (1 : Fin 2) * 64 + 64; rw [e1]; omega

end Cert.KernelIdeal.Br

end
-- ==== Proof.Val.Spec.lean ====
/-
  The high-pass branch as ONE function of its two arrays: Hh = L @ Z, entry (r, q) the sum over the 12288 columns k of
  L[r, k] * Z[k, q], over the extended reals. The kernel reaches that sum in eight steps, one per contraction block of
  1536 columns; the law that joins the two arrangements is re-association of a finite sum in an additive commutative
  monoid: the sum over 12288 = 8 * 1536 columns is the sum over the 8 blocks b of the sums over the 1536 columns
  1536 * b + j of the block. No finiteness of the entries is needed for it.
-/
import Idealize.ShloMosaic.PureOps.Ideal
import Idealize.ShloMosaic.Lib.ValueIdx
import Mathlib.Algebra.BigOperators.Fin
import Mathlib.Algebra.BigOperators.Group.Finset.Basic

noncomputable section

open scoped BigOperators
open Idealize.ShloMosaic Idealize.ShloMosaic.ValueIdx

namespace Cert.KernelIdeal.Br

/-- The square operator's shape, the feature array's shape (also the result's), and the shapes of one block of each. -/
abbrev SL : Shape := ⟨2, ![12288, 12288]⟩
abbrev SZ : Shape := ⟨2, ![12288, 64]⟩
abbrev SLb : Shape := ⟨2, ![1536, 1536]⟩
abbrev SZb : Shape := ⟨2, ![1536, 64]⟩

/-- `(L @ Z)[r, q] = Σ_k L[r, k] * Z[k, q]`. -/
def Hh (L : SL.Idx → EReal) (Z : SZ.Idx → EReal) : SZ.Idx → EReal :=
  fun i => ∑ k : Fin 12288, L (ix2 (n0 := 12288) (i 0) k) * Z (ix2 (n1 := 64) k (i 1))

section Law

variable (L : SL.Idx → EReal) (Z : SZ.Idx → EReal) (r : Fin 12288) (q : Fin 64)

/-- At explicit coordinates. -/
theorem Hh_ix2 : Hh L Z (ix2 r q) = ∑ k : Fin 12288, L (ix2 r k) * Z (ix2 k q) := rfl

/-- Column `k`'s term of entry `(r, q)`, as a function of the natural number `k` (zero past the last column, which no sum
    below reaches). -/
def term (k : ℕ) : EReal := if h : k < 12288 then L (ix2 r ⟨k, h⟩) * Z (ix2 ⟨k, h⟩ q) else 0

theorem term_of_lt {k : ℕ} (h : k < 12288) : term L Z r q k = L (ix2 r ⟨k, h⟩) * Z (ix2 ⟨k, h⟩ q) := dif_pos h

/-- Contraction block `b`'s share of entry `(r, q)`: the 1536 columns `1536 * b + j`. -/
def blockSum (b : ℕ) : EReal := ∑ j : Fin 1536, term L Z r q (1536 * b + j.val)

/-- The share of a block inside the array, written with the arrays' entries. -/
theorem blockSum_eq (b : ℕ) (hb : b < 8) :
    blockSum L Z r q b
      = ∑ j : Fin 1536, L (ix2 r ⟨1536 * b + j.val, by have := j.isLt; omega⟩) * Z (ix2 ⟨1536 * b + j.val, by have := j.isLt; omega⟩ q) :=
  Finset.sum_congr rfl fun j _ => term_of_lt L Z r q (by have := j.isLt; omega)

/-- The first `n` blocks' shares. -/
def partialHh (n : ℕ) : EReal := ∑ b ∈ Finset.range n, blockSum L Z r q b

theorem partialHh_zero : partialHh L Z r q 0 = 0 := Finset.sum_range_zero _

theorem partialHh_succ (n : ℕ) : partialHh L Z r q (n + 1) = partialHh L Z r q n + blockSum L Z r q n :=
  Finset.sum_range_succ _ _

/-- The columns below `1536 * n` are the first `n` blocks. -/
theorem sum_range_blocks (n : ℕ) : ∑ k ∈ Finset.range (1536 * n), term L Z r q k = partialHh L Z r q n := by
  induction n with
  | zero => rfl
  | succ n ih =>
    rw [Nat.mul_succ, Finset.sum_range_add, ih, partialHh_succ]
    exact congrArg (partialHh L Z r q n + ·) (Fin.sum_univ_eq_sum_range (fun j => term L Z r q (1536 * n + j)) 1536).symm

/-- All eight blocks: the whole contraction. -/
theorem partialHh_eight : partialHh L Z r q 8 = Hh L Z (ix2 r q) := by
  rw [← sum_range_blocks, Hh_ix2, ← Fin.sum_univ_eq_sum_range (fun k => term L Z r q k) 12288]
  exact Finset.sum_congr rfl fun k _ => term_of_lt L Z r q k.isLt

end Law

end Cert.KernelIdeal.Br

end
-- ==== Proof.Val.Step.lean ====
/-
  One grid point's share of an entry. At point t = 8 * i + k the accumulator's entry (p, q) belongs to row
  r = 1536 * i + p of the result; if it held the first k blocks' shares of (L @ Z)[r, q] and the two blocks handed to the
  body are the operator's rows 1536 * i + · , columns 1536 * k + · and the features' rows 1536 * k + · , then adding
  the blocks' row-by-column sum makes it the first k + 1 blocks' shares.
-/
import proofs.«147044_j22316650070954_1_alg».proof.Proof.Val.Spec

noncomputable section

open scoped BigOperators
open Idealize.ShloMosaic Idealize.ShloMosaic.ValueIdx

namespace Cert.KernelIdeal.Br

variable (L : SL.Idx → EReal) (Z : SZ.Idx → EReal)

/-- The partial sums depend on the row and the count only through their values. -/
theorem partialHh_congr (q : Fin 64) {r r' : Fin 12288} (hr : r.val = r'.val) {n n' : ℕ} (hn : n = n') :
    partialHh L Z r q n = partialHh L Z r' q n' := by
  obtain rfl : r = r' := Fin.ext hr
  subst hn
  rfl

/-- Row 1536 * (t / 8) + p of the result, for a point t of the 64 and a row p of the block. -/
abbrev rowOf (t : ℕ) (ht : t < 64) (p : Fin 1536) : Fin 12288 := ⟨1536 * (t / 8) + p.val, by have := p.isLt; omega⟩
/-- Column (of the operator) or row (of the features) 1536 * (t % 8) + j. -/
abbrev colOf (t : ℕ) (j : Fin 1536) : Fin 12288 := ⟨1536 * (t % 8) + j.val, by have := j.isLt; omega⟩

/-- The update at point t, at entry (p, q). -/
theorem step_eq (t : ℕ) (ht : t < 64) (p : Fin 1536) (q : Fin 64) (a : SLb.Idx → EReal) (b : SZb.Idx → EReal) (acc : EReal)
    (ha : ∀ j : Fin 1536, a (ix2 p j) = L (ix2 (rowOf t ht p) (colOf t j)))
    (hb : ∀ j : Fin 1536, b (ix2 j q) = Z (ix2 (colOf t j) q))
    (hacc : acc = partialHh L Z (rowOf t ht p) q (t % 8)) :
    acc + ∑ j : Fin 1536, a (ix2 p j) * b (ix2 j q) = partialHh L Z (rowOf t ht p) q (t % 8 + 1) := by
  rw [partialHh_succ, blockSum_eq L Z (rowOf t ht p) q (t % 8) (Nat.mod_lt _ (by decide)), hacc]
  exact congrArg (partialHh L Z (rowOf t ht p) q (t % 8) + ·) (Finset.sum_congr rfl fun j _ => by rw [ha j, hb j])

/-- The first point of a row block starts from nothing. -/
theorem partialHh_first (t : ℕ) (r : Fin 12288) (q : Fin 64) (h0 : t % 8 = 0) : (0 : EReal) = partialHh L Z r q (t % 8) := by
  rw [h0]; exact (partialHh_zero L Z r q).symm

/-- Past the first point of a row block, what the point before left is what this point starts from. -/
theorem partialHh_prev (t : ℕ) (ht : t < 64) (ht' : t - 1 < 64) (p : Fin 1536) (q : Fin 64) (h0 : ¬t % 8 = 0) :
    partialHh L Z (rowOf (t - 1) ht' p) q ((t - 1) % 8 + 1) = partialHh L Z (rowOf t ht p) q (t % 8) :=
  partialHh_congr L Z q (by show 1536 * ((t - 1) / 8) + p.val = 1536 * (t / 8) + p.val; omega) (by omega)

/-- The last point of a row block holds the whole entry. -/
theorem partialHh_last (t : ℕ) (ht : t < 64) (p : Fin 1536) (q : Fin 64) (h7 : t % 8 = 7) :
    partialHh L Z (rowOf t ht p) q (t % 8 + 1) = Hh L Z (ix2 (rowOf t ht p) q) := by
  rw [h7]; exact partialHh_eight L Z (rowOf t ht p) q

end Cert.KernelIdeal.Br

end
-- ==== Proof.Val.Acc.lean ====
/-
  The kernel's result array is the whole product. Reading the frame's proof data: at each grid point the body leaves
  in the accumulator the update's value of the two blocks and of what the accumulator held (zero at the first point
  of a row block); so after point t = 8 * i + k the accumulator's entry (p, q) is the first k + 1 contraction blocks'
  shares of (L @ Z)[1536 * i + p, q], by induction on the point. At k = 7 that is the whole entry, the body copies the
  accumulator to the output block, and the pipeline writes the block back to rows 1536 * i + · of the result array.
  The eight written-back blocks tile the array.
-/
import proofs.«147044_j22316650070954_1_alg».proof.Proof.KI.Frame
import proofs.«147044_j22316650070954_1_alg».proof.Proof.Val.Payload
import proofs.«147044_j22316650070954_1_alg».proof.Proof.Val.Blocks
import proofs.«147044_j22316650070954_1_alg».proof.Proof.Val.Step
import Idealize.ShloMosaic.Lib.Pipeline.Value
import Idealize.ShloMosaic.Lib.Tactic

set_option maxRecDepth 16384

noncomputable section

open scoped BigOperators
open Idealize.ShloMosaic Idealize.ShloMosaic.TcCoe Idealize.ShloMosaic.Tactic Idealize.SL.Sem Idealize.ShloMosaic.ValueIdx
open Idealize.ShloMosaic.Pipeline (Dat)

namespace Cert.KernelIdeal.Br

open Cert.KernelIdeal Cert.KernelIdeal.Gen Cert.KernelIdeal.Fr

/-! ### What each case of the body leaves, as the update's value -/

section Pieces

variable {F : FTy → Type} [FloatOps F]

theorem hz : (![0, 0] : Fin 2 → Nat) = fun _ => 0 := funext fun a => by fin_cases a <;> rfl

/-- First point of a row block: the zero fill, then the update over it. -/
theorem accFirst_eq (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : atFirst i) (hc1 : ¬atLast i)
    (x0 : Vec F S1536x1536 .f32) (x1 : Vec F S1536x64 .f32) :
    accFirst c i arg2 harg2 arg3 harg3 arg4 harg4 arg5 harg5 hc0 hc1 x0 x1 = k0_pay2 x0 x1 (k0_pay1 (F := F)) := by
  unfold accFirst
  rw [View.read_writes_eq_canon _ _ _ (accCoverFirst c i arg2 harg2 arg3 harg3 arg4 harg4 arg5 harg5 hc0 hc1 x0 x1)]
  unfold bodyRunFirst
  dsimp only
  sl_unfold_words
  rw [View.canon_cons_unit_zero (S := S1536x64) hz, View.readCov_unit_zero (S := S1536x64) _ hz]
  simp only [View.readAt_eq_ld, harg2.read_unread, harg3.read_unread, View.ld_unit_zero (S := S1536x1536) hz, View.ld_unit_zero (S := S1536x64) hz]

/-- A point inside a row block: the update over what the accumulator held. -/
theorem accMid_eq (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : ¬atLast i)
    (x0 : Vec F S1536x1536 .f32) (x1 : Vec F S1536x64 .f32) (xs0 : Vec F S1536x64 .f32) :
    accMid c i arg2 harg2 arg3 harg3 arg4 harg4 arg5 harg5 hc0 hc1 x0 x1 xs0 = k0_pay2 x0 x1 xs0 := by
  unfold accMid
  rw [View.read_writes_eq_canon _ _ _ (accCoverMid c i arg2 harg2 arg3 harg3 arg4 harg4 arg5 harg5 hc0 hc1 x0 x1 xs0)]
  unfold bodyRunMid
  dsimp only
  sl_unfold_words
  rw [View.canon_unit_zero (S := S1536x64) hz]
  simp only [View.readAt_eq_ld, harg2.read_unread, harg3.read_unread, harg5.read_unread, View.ld_unit_zero (S := S1536x1536) hz, View.ld_unit_zero (S := S1536x64) hz]

/-- Last point of a row block: the same update in the accumulator … -/
theorem accLast_eq (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) :
    accLast c i arg2 harg2 arg3 harg3 arg4 harg4 arg5 harg5 hc0 hc1 x0 x1 xs0 = k0_pay2 x0 x1 xs0 := by
  unfold accLast
  rw [View.read_writes_eq_canon _ _ _ (accCoverLast c i arg2 harg2 arg3 harg3 arg4 harg4 arg5 harg5 hc0 hc1 x0 x1 xs0)]
  unfold bodyRunLast
  dsimp only
  sl_unfold_words
  rw [View.canon_unit_zero (S := S1536x64) hz]
  simp only [View.readAt_eq_ld, harg2.read_unread, harg3.read_unread, harg5.read_unread, View.ld_unit_zero (S := S1536x1536) hz, View.ld_unit_zero (S := S1536x64) hz]

/-- … and the output block is the accumulator just stored. -/
theorem outLast_eq (c : Dev nD) (i : grid0.Coords) (arg2 : Memref sig .tc .vmem S1536x1536 .f32) (harg2 : arg2.IsWhole) (arg3 : Memref sig .tc .vmem S1536x64 .f32) (harg3 : arg3.IsWhole) (arg4 : Memref sig .tc .vmem S1536x64 .f32) (harg4 : arg4.IsWhole) (arg5 : Memref sig .tc .vmem S1536x64 .f32) (harg5 : arg5.IsWhole) (hc0 : ¬atFirst i) (hc1 : atLast i)
    (x0 : Vec F S1536x1536 .f32) (x1 : Vec F S1536x64 .f32) (xs0 : Vec F S1536x64 .f32) :
    outLast c i arg2 harg2 arg3 harg3 arg4 harg4 arg5 harg5 hc0 hc1 x0 x1 xs0 = k0_pay2 x0 x1 xs0 := by
  unfold outLast
  rw [View.read_writes_eq_canon _ _ _ (outCoverLast c i arg2 harg2 arg3 harg3 arg4 harg4 arg5 harg5 hc0 hc1 x0 x1 xs0)]
  unfold bodyRunLast
  dsimp only
  sl_unfold_words
  rw [View.canon_unit_zero (S := S1536x64) hz, View.readCov_unit_zero (S := S1536x64) _ hz]
  simp only [View.readAt_eq_ld, harg2.read_unread, harg3.read_unread, harg5.read_unread, View.ld_unit_zero (S := S1536x1536) hz, View.ld_unit_zero (S := S1536x64) hz]

end Pieces

/-! ### The arrays and the blocks, at their literal types -/

variable (m : (ℓ : Loc nD τ sig) → Buf (Elt Ideal) ℓ)

/-- The operator as the launch finds it (an argument of the program). -/
abbrev opArr (c : Dev nD) : FVec Ideal SL .f32 := m ((c : Thread nD τ).loc main_arg2)
/-- The features as the region finds them (written by the host operations before it). -/
abbrev ftArr (c : Dev nD) : FVec Ideal SZ .f32 := V m c main_v2
/-- The two input blocks at point t. -/
abbrev opBlk (c : Dev nD) (t : Fin cfg0.N) : Vec Ideal S1536x1536 .f32 := blockIn m c 0 t
abbrev ftBlk (c : Dev nD) (t : Fin cfg0.N) : Vec Ideal S1536x64 .f32 := blockIn m c 1 t

theorem opBlk_apply (c : Dev nD) (t : Fin cfg0.N) (p j : Fin 1536) :
    opBlk m c t (ix2 p j) = opArr m c (ix2 (rowOf t.val (N_lt t) p) (colOf t.val j)) :=
  (read_blk0 (F := Ideal) (V m c main_arg2) t p j).trans (congrFun (V_main_arg2 m c) _)

theorem ftBlk_apply (c : Dev nD) (t : Fin cfg0.N) (j : Fin 1536) (q : Fin 64) :
    ftBlk m c t (ix2 j q) = ftArr m c (ix2 (colOf t.val j) q) :=
  read_blk1 (F := Ideal) (V m c main_v2) t j q

/-! ### The accumulator after each point -/

/-- After point n = 8 * i + k the accumulator's entry (p, q) is the first k + 1 blocks' shares of row 1536 * i + p. -/
theorem acc_eq (c : Dev nD) : ∀ (n : ℕ) (hn : n < cfg0.N) (p : Fin 1536) (q : Fin 64),
    (pointState m c n hn).2 (ix2 p q)
      = partialHh (opArr m c) (ftArr m c) (rowOf n (lt_of_lt_of_eq hn N_0) p) q (n % 8 + 1) := by
  intro n
  induction n using Nat.strong_induction_on with
  | _ n ih =>
    intro hn p q
    have h64 : n < 64 := lt_of_lt_of_eq hn N_0
    let t : Fin cfg0.N := ⟨n, hn⟩
    by_cases h0 : n % 8 = 0
    · have h1 : ¬n % 8 = 7 := by omega
      rw [pointState_first m c t h0 h1]
      dsimp only
      refine (congrFun (accFirst_eq (F := Ideal) c (grid0.coords t) (stIn0 t) (hstIn0 t) (stIn1 t) (hstIn1 t) (stOut t) (hstOut t) accM (Memref.isWhole_whole _) ((atFirst_iff t).mpr h0) (fun h => h1 ((atLast_iff t).mp h)) (opBlk m c t) (ftBlk m c t)) (ix2 p q)).trans ?_
      refine (pay2_apply (opBlk m c t) (ftBlk m c t) (k0_pay1 (F := Ideal)) p q).trans ?_
      refine step_eq (opArr m c) (ftArr m c) n h64 p q (opBlk m c t) (ftBlk m c t) _ (fun j => opBlk_apply m c t p j) (fun j => ftBlk_apply m c t j q) ?_
      exact (pay1_apply (ix2 p q)).trans (partialHh_first (opArr m c) (ftArr m c) n _ q h0)
    · have hlt : n - 1 < n := by omega
      have hn' : n - 1 < cfg0.N := Nat.lt_of_le_of_lt (Nat.sub_le _ _) hn
      have hprev := ih (n - 1) hlt hn' p q
      have hstart : (pointState m c (n - 1) hn').2 (ix2 p q) = partialHh (opArr m c) (ftArr m c) (rowOf n h64 p) q (n % 8) :=
        hprev.trans (partialHh_prev (opArr m c) (ftArr m c) n h64 _ p q h0)
      by_cases h1 : n % 8 = 7
      · rw [pointState_last m c t h0 h1]
        dsimp only
        refine (congrFun (accLast_eq (F := Ideal) c (grid0.coords t) (stIn0 t) (hstIn0 t) (stIn1 t) (hstIn1 t) (stOut t) (hstOut t) accM (Memref.isWhole_whole _) (fun h => h0 ((atFirst_iff t).mp h)) ((atLast_iff t).mpr h1) (opBlk m c t) (ftBlk m c t) (pointState m c (n - 1) hn').2) (ix2 p q)).trans ?_
        refine (pay2_apply (opBlk m c t) (ftBlk m c t) (pointState m c (n - 1) hn').2 p q).trans ?_
        exact step_eq (opArr m c) (ftArr m c) n h64 p q (opBlk m c t) (ftBlk m c t) _ (fun j => opBlk_apply m c t p j) (fun j => ftBlk_apply m c t j q) hstart
      · rw [pointState_mid m c t h0 h1]
        dsimp only
        refine (congrFun (accMid_eq (F := Ideal) c (grid0.coords t) (stIn0 t) (hstIn0 t) (stIn1 t) (hstIn1 t) (stOut t) (hstOut t) accM (Memref.isWhole_whole _) (fun h => h0 ((atFirst_iff t).mp h)) (fun h => h1 ((atLast_iff t).mp h)) (opBlk m c t) (ftBlk m c t) (pointState m c (n - 1) hn').2) (ix2 p q)).trans ?_
        refine (pay2_apply (opBlk m c t) (ftBlk m c t) (pointState m c (n - 1) hn').2 p q).trans ?_
        exact step_eq (opArr m c) (ftArr m c) n h64 p q (opBlk m c t) (ftBlk m c t) _ (fun j => opBlk_apply m c t p j) (fun j => ftBlk_apply m c t j q) hstart

/-! ### What is written back -/

/-- At the last point of a row block the output block's entry (p, q) is the whole entry of row 1536 * i + p. -/
theorem out_eq (c : Dev nD) (t : Fin cfg0.N) (h7 : t.val % 8 = 7) (p : Fin 1536) (q : Fin 64) :
    (pointState m c t.val t.isLt).1 (ix2 p q) = Hh (opArr m c) (ftArr m c) (ix2 (rowOf t.val (N_lt t) p) q) := by
  have h0 : ¬t.val % 8 = 0 := by omega
  have hn' : t.val - 1 < cfg0.N := Nat.lt_of_le_of_lt (Nat.sub_le _ _) t.isLt
  have hstart : (pointState m c (t.val - 1) hn').2 (ix2 p q) = partialHh (opArr m c) (ftArr m c) (rowOf t.val (N_lt t) p) q (t.val % 8) :=
    (acc_eq m c (t.val - 1) hn' p q).trans (partialHh_prev (opArr m c) (ftArr m c) t.val (N_lt t) _ p q h0)
  rw [pointState_last m c t h0 h7]
  dsimp only
  refine (congrFun (outLast_eq (F := Ideal) c (grid0.coords t) (stIn0 t) (hstIn0 t) (stIn1 t) (hstIn1 t) (stOut t) (hstOut t) accM (Memref.isWhole_whole _) (fun h => h0 ((atFirst_iff t).mp h)) ((atLast_iff t).mpr h7) (opBlk m c t) (ftBlk m c t) (pointState m c (t.val - 1) hn').2) (ix2 p q)).trans ?_
  refine (pay2_apply (opBlk m c t) (ftBlk m c t) (pointState m c (t.val - 1) hn').2 p q).trans ?_
  exact (step_eq (opArr m c) (ftArr m c) t.val (N_lt t) p q (opBlk m c t) (ftBlk m c t) _ (fun j => opBlk_apply m c t p j) (fun j => ftBlk_apply m c t j q) hstart).trans
    (partialHh_last (opArr m c) (ftArr m c) t.val (N_lt t) p q h7)

/-- What a point that writes back writes: its block of the product. -/
theorem flushed_eq (c : Dev nD) (t : Fin cfg0.N) (hf : (cfg0.win 2).flush t = true) :
    (pdata (F := Ideal) m 0 c).flushed 2 t = ((cfg0.win 2).blk t).view.read (Elt Ideal) (Hh (opArr m c) (ftArr m c)) := by
  have h7 : t.val % 8 = 7 := (flush0_2 t).mp hf
  show (cfg0.win 2).cut (grid0.coords t) ((pdata (F := Ideal) m 0 c).after 2 t) = _
  rw [pdata_after_out]
  funext y
  obtain ⟨p, q, rfl⟩ : ∃ (p : Fin 1536) (q : Fin 64), y = ix2 p q := ⟨y 0, y 1, eq_ix2 y⟩
  show (pointState m c t.val t.isLt).1 (ix2 p q) = _
  exact (out_eq m c t h7 p q).trans (read_blk2 (F := Ideal) (Hh (opArr m c) (ftArr m c)) t p q).symm

/-- THE RESULT ARRAY after the region: the product of the operator with the features. -/
theorem kernel_Hh (c : Dev nD) :
    (pdata (F := Ideal) m 0 c).arrAt 2 cfg0.N = Hh (m ((c : Thread nD τ).loc main_arg2)) (V m c main_v2) :=
  (pdata (F := Ideal) m 0 c).arrAt_eq_of_cover 2 (Hh (opArr m c) (ftArr m c)) (flushed_eq m c) cover2

end Cert.KernelIdeal.Br

end
-- ==== Proof.Val.RefDot.lean ====
/-
  The reference's high-pass branch: one host contraction of the 12288 x 12288 operator with the 12288 x 64 features.
  Over the extended reals it is, entry by entry, the row-by-column sum: the function `Hh`.
-/
import proofs.«147044_j22316650070954_1_alg».proof.ReferenceIdeal
import proofs.«147044_j22316650070954_1_alg».proof.Proof.Val.Spec
import Idealize.ShloMosaic.Lib.ValueIdx
import Idealize.ShloMosaic.PureOps.Ideal.Laws

noncomputable section

open scoped BigOperators
open Idealize.ShloMosaic Idealize.ShloMosaic.ValueIdx

namespace Cert.KernelIdeal.Br

open Cert.ReferenceIdeal (S12288x12288 S12288x64 dot_S12288x12288_S12288x64_S12288x64_1_0_0_1_n_n)

variable [Cert.ReferenceIdeal.Facts₀]

/-! ### The contraction's operand indices: row r and column k of the operator, row k and column q of the features -/

theorem lhs_ref_0 (i : S12288x64.Idx) (k : dot_S12288x12288_S12288x64_S12288x64_1_0_0_1_n_n.contr.Idx) :
    (dot_S12288x12288_S12288x64_S12288x64_1_0_0_1_n_n.lhsIdx i k 0).val = (i 0).val := by
  unfold DotDims.lhsIdx
  rw [dif_neg (show ¬(0 : Fin S12288x12288.rank) ∈ dot_S12288x12288_S12288x64_S12288x64_1_0_0_1_n_n.lhsBatch from List.not_mem_nil), dif_pos (show (0 : Fin S12288x12288.rank) ∈ dot_S12288x12288_S12288x64_S12288x64_1_0_0_1_n_n.lhsNonContracting from List.mem_singleton.mpr rfl)]
  rfl
theorem lhs_ref_1 (i : S12288x64.Idx) (k : dot_S12288x12288_S12288x64_S12288x64_1_0_0_1_n_n.contr.Idx) :
    (dot_S12288x12288_S12288x64_S12288x64_1_0_0_1_n_n.lhsIdx i k 1).val = (k ⟨0, Nat.one_pos⟩).val :=
  dot_S12288x12288_S12288x64_S12288x64_1_0_0_1_n_n.lhsIdx_val_of_single rfl i k
theorem rhs_ref_0 (i : S12288x64.Idx) (k : dot_S12288x12288_S12288x64_S12288x64_1_0_0_1_n_n.contr.Idx) :
    (dot_S12288x12288_S12288x64_S12288x64_1_0_0_1_n_n.rhsIdx i k 0).val = (k ⟨0, Nat.one_pos⟩).val :=
  dot_S12288x12288_S12288x64_S12288x64_1_0_0_1_n_n.rhsIdx_val_of_single rfl i k
theorem rhs_ref_1 (i : S12288x64.Idx) (k : dot_S12288x12288_S12288x64_S12288x64_1_0_0_1_n_n.contr.Idx) :
    (dot_S12288x12288_S12288x64_S12288x64_1_0_0_1_n_n.rhsIdx i k 1).val = (i 1).val := by
  unfold DotDims.rhsIdx
  rw [dif_neg (show ¬(1 : Fin S12288x64.rank) ∈ dot_S12288x12288_S12288x64_S12288x64_1_0_0_1_n_n.rhsBatch from List.not_mem_nil), dif_pos (show (1 : Fin S12288x64.rank) ∈ dot_S12288x12288_S12288x64_S12288x64_1_0_0_1_n_n.rhsNonContracting from List.mem_singleton.mpr rfl)]
  rfl

/-- The host's contraction is `Hh`. -/
theorem ref_Hh (L : FVec Ideal SL .f32) (Z : FVec Ideal SZ .f32) :
    Host.dotGeneral (F := Ideal) dot_S12288x12288_S12288x64_S12288x64_1_0_0_1_n_n none L Z = Hh L Z := by
  funext i
  obtain ⟨r, q, rfl⟩ : ∃ (r : Fin 12288) (q : Fin 64), i = ix2 r q := ⟨i 0, i 1, eq_ix2 i⟩
  rw [Hh_ix2]
  show FloatOps.dotGeneral dot_S12288x12288_S12288x64_S12288x64_1_0_0_1_n_n none .single L Z (ix2 r q) = _
  rw [Ideal.dotGeneral_apply, ← Equiv.sum_comp (contrEquiv1 dot_S12288x12288_S12288x64_S12288x64_1_0_0_1_n_n 12288 rfl rfl).symm]
  refine Finset.sum_congr rfl fun k _ => ?_
  have hk := contrEquiv1_symm_val dot_S12288x12288_S12288x64_S12288x64_1_0_0_1_n_n 12288 rfl rfl k
  have el : dot_S12288x12288_S12288x64_S12288x64_1_0_0_1_n_n.lhsIdx (ix2 r q) ((contrEquiv1 dot_S12288x12288_S12288x64_S12288x64_1_0_0_1_n_n 12288 rfl rfl).symm k) = ix2 r k := funext fun a => Fin.ext (by
    match a with
    | ⟨0, _⟩ => exact lhs_ref_0 _ _
    | ⟨1, _⟩ => exact (lhs_ref_1 _ _).trans hk)
  have er : dot_S12288x12288_S12288x64_S12288x64_1_0_0_1_n_n.rhsIdx (ix2 r q) ((contrEquiv1 dot_S12288x12288_S12288x64_S12288x64_1_0_0_1_n_n 12288 rfl rfl).symm k) = ix2 k q := funext fun a => Fin.ext (by
    match a with
    | ⟨0, _⟩ => exact (rhs_ref_0 _ _).trans hk
    | ⟨1, _⟩ => exact rhs_ref_1 _ _)
  rw [el, er]

end Cert.KernelIdeal.Br

end
-- ==== Proof.lean ====
/-
  The certificate of the layer  aL * GCNConv(x, edge_index) + aH * (Lsym @ relu(x @ W_highᵀ)).

  The kernel program computes the high-pass product Lsym @ Z on a grid of 8 row blocks by 8 contraction blocks,
  accumulating the 1536-wide partial products of each row block in a scratch accumulator that is zeroed at the
  first contraction block and written out after the last; the reference computes the same product by one
  contraction over all 12288 columns. Over the extended reals a sum over 12288 indices is the sum of its eight
  consecutive blocks of 1536 (addition is commutative and associative there, infinities included), so the two
  products agree entry by entry with no finiteness assumption. Everything after the product — the degree count,
  the symmetric normalisation, the gathered and scattered messages, the bias and the final weighted sum — is the
  same chain of host operations in both programs, and is carried as one function of the arguments and the product.

  The three frames: the kernel program's (at the word level and at the ideal level) is the pipeline launch with
  the accumulator tracked from point to point, continued by the host operations after it; the reference's is its
  run with the result dropped.
-/
import proofs.«147044_j22316650070954_1_alg».proof.Defs
import proofs.«147044_j22316650070954_1_alg».proof.Proof.Gen.Kernel
import proofs.«147044_j22316650070954_1_alg».proof.Proof.Gen.KernelIdeal
import proofs.«147044_j22316650070954_1_alg».proof.Proof.Gen.ReferenceIdeal
import proofs.«147044_j22316650070954_1_alg».proof.Proof.Gen.Pre_finite_inputs
import proofs.«147044_j22316650070954_1_alg».proof.Proof.K.Frame
import proofs.«147044_j22316650070954_1_alg».proof.Proof.KI.Frame
import proofs.«147044_j22316650070954_1_alg».proof.Proof.RefRun
import proofs.«147044_j22316650070954_1_alg».proof.Proof.Tail
import proofs.«147044_j22316650070954_1_alg».proof.Proof.RefTail
import proofs.«147044_j22316650070954_1_alg».proof.Proof.Val.Acc
import proofs.«147044_j22316650070954_1_alg».proof.Proof.Val.RefDot
import Idealize.ShloMosaic.Adequacy
import Idealize.ShloMosaic.Init

noncomputable section

namespace Cert.Proof

open Idealize.ShloMosaic Idealize.ShloMosaic.TcCoe Idealize.SL.Sem

/-- The word-level kernel program runs to the end and keeps its eight argument arrays. -/
theorem frame_k : Cert.frame_Kernel := fun m ρ _ => Cert.Kernel.Fr.frame m ρ

/-- So does the kernel program read over the extended reals. -/
theorem frame_ki : Cert.frame_KernelIdeal := fun m ρ _ => Cert.KernelIdeal.Fr.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

open Cert.KernelIdeal Cert.KernelIdeal.Gen Cert.KernelIdeal.Fr Cert.KernelIdeal.Br in
/-- Both programs end with  tail(arguments, Lsym @ Z): the kernel's accumulated blocks are the whole product,
    the reference's contraction is the same sum, and the operations after the product are shared. -/
theorem algebraic : Cert.algebraic_KernelIdeal_ReferenceIdeal := by
  intro m ρ m' ρ' _ hagree
  refine ⟨fun c => hostTail (F := Ideal) (m ((c.tc : Thread nD τ).loc main_arg0)) (m ((c.tc : Thread nD τ).loc main_arg1))
      (m ((c.tc : Thread nD τ).loc main_arg4)) (m ((c.tc : Thread nD τ).loc main_arg5)) (m ((c.tc : Thread nD τ).loc main_arg6))
      (m ((c.tc : Thread nD τ).loc main_arg7)) (Hh (m ((c.tc : Thread nD τ).loc main_arg2)) (V m c main_v2)), ?_, ?_⟩
  · refine (θ_run Cert.KernelIdeal.defs _ _).mono (fun r h c => ⟨?_, args_kept m (pdata m) (pdata_A m) r h c⟩)
      (run_main (F := Ideal) m ρ)
    rw [(h c).2 main_v56 (Pipeline.mem_restRefs_of main_v56 (by decide) (by decide)), afterTail_v56, kernel_Hh]
  · refine (θ_run Cert.ReferenceIdeal.defs _ _).mono (fun r h c => ⟨(h c).1.trans ?_, (h c).2⟩)
      (Cert.ReferenceIdeal.ValueP.run (F := Ideal) m' ρ')
    beta_reduce
    rw [ref_result, ref_Hh, (hagree c).1, (hagree c).2.1, (hagree c).2.2.1, (hagree c).2.2.2.1, (hagree c).2.2.2.2.1,
      (hagree c).2.2.2.2.2.1, (hagree c).2.2.2.2.2.2.1, (hagree c).2.2.2.2.2.2.2, V_main_v2]
    -- the two programs' records of the small product and of the broadcast have the same fields
    rfl

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
